-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1260 : Shape := ⟨2, ![65536, 1260]⟩
abbrev S128x1260 : Shape := ⟨2, ![128, 1260]⟩
abbrev S128 : Shape := ⟨1, ![128]⟩
abbrev S32x256 : Shape := ⟨2, ![32, 256]⟩
abbrev S32 : Shape := ⟨1, ![32]⟩
abbrev S32x32 : Shape := ⟨2, ![32, 32]⟩
abbrev S1x32 : Shape := ⟨2, ![1, 32]⟩
abbrev S1 : Shape := ⟨1, ![1]⟩
abbrev S_ : Shape := ⟨0, ![]⟩

class Facts : Prop where
  bcast_S_S65536x1260 : S_.BroadcastsInDim S65536x1260 (![] : Fin 0 → Fin S65536x1260.rank)
  reducesTo_S65536x1260_S_d0_1 : S65536x1260.ReducesTo [0, 1] S_
  h_S_ : 0 < S_.numel
  bcast_S_S128x1260 : S_.BroadcastsInDim S128x1260 (![] : Fin 0 → Fin S128x1260.rank)
  reducesTo_S128x1260_S_d0_1 : S128x1260.ReducesTo [0, 1] S_
  bcast_S_S128 : S_.BroadcastsInDim S128 (![] : Fin 0 → Fin S128.rank)
  reducesTo_S128_S_d0 : S128.ReducesTo [0] S_
  bcast_S_S32x256 : S_.BroadcastsInDim S32x256 (![] : Fin 0 → Fin S32x256.rank)
  reducesTo_S32x256_S_d0_1 : S32x256.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S1x32 : S_.BroadcastsInDim S1x32 (![] : Fin 0 → Fin S1x32.rank)
  reducesTo_S1x32_S_d0_1 : S1x32.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S32 .f32) (main_arg8 : FVec F S1x32 .f32) (main_arg9 : FVec F S1 .f32) (main_v33 : IVec S_ 1) : IVec S_ 1 :=
  let main_v34 : FVec F S32 .f32 := Host.absf main_arg7
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S1x32 .f32 := Host.absf main_arg8
  let main_cst_14 : FVec F S_ .f32 := constant S_ .f32 0x7F800000#32
  let main_v40 : FVec F S1x32 .f32 := broadcastInDim S1x32 ![] bcast_S_S1x32 main_cst_14
  let main_v41 : IVec S1x32 1 := cmpf .olt main_v39 main_v40
  let main_c_15 : IVec S_ 1 := constantI S_ 1 1#1
  let main_v42 : IVec S_ 1 := (fun x v => Host.reduce IntOp.andi x v reducesTo_S1x32_S_d0_1 h_S_) main_v41 main_c_15
  let main_v43 : IVec S_ 1 := andi main_v38 main_v42
  let main_v44 : FVec F S1 .f32 := Host.absf main_arg9
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg4 : FVec F S32x256 .f32) (main_arg5 : FVec F S32 .f32) (main_arg6 : FVec F S32x32 .f32) (main_arg7 : FVec F S32 .f32) (main_arg8 : FVec F S1x32 .f32) (main_arg9 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S32x256 .f32 := Host.absf main_arg4
  let main_cst_6 : FVec F S_ .f32 := constant S_ .f32 0x7F800000#32
  let main_v20 : FVec F S32x256 .f32 := broadcastInDim S32x256 ![] bcast_S_S32x256 main_cst_6
  let main_v21 : IVec S32x256 1 := cmpf .olt main_v19 main_v20
  let main_c_7 : IVec S_ 1 := constantI S_ 1 1#1
  let main_v22 : IVec S_ 1 := (fun x v => Host.reduce IntOp.andi x v reducesTo_S32x256_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x32 .f32 := Host.absf main_arg6
  let main_cst_10 : FVec F S_ .f32 := constant S_ .f32 0x7F800000#32
  let main_v30 : FVec F S32x32 .f32 := broadcastInDim S32x32 ![] bcast_S_S32x32 main_cst_10
  let main_v31 : IVec S32x32 1 := cmpf .olt main_v29 main_v30
  let main_c_11 : IVec S_ 1 := constantI S_ 1 1#1
  let main_v32 : IVec S_ 1 := (fun x v => Host.reduce IntOp.andi x v reducesTo_S32x32_S_d0_1 h_S_) main_v31 main_c_11
  let main_v33 : IVec S_ 1 := andi main_v28 main_v32
  fn_part2 (F := F) main_arg7 main_arg8 main_arg9 main_v33

def fn {F : FTy → Type} [FloatOps F] (main_arg0 : FVec F S65536x1260 .f32) (main_arg1 : FVec F S65536x1260 .f32) (main_arg2 : FVec F S128x1260 .f32) (main_arg3 : FVec F S128 .f32) (main_arg4 : FVec F S32x256 .f32) (main_arg5 : FVec F S32 .f32) (main_arg6 : FVec F S32x32 .f32) (main_arg7 : FVec F S32 .f32) (main_arg8 : FVec F S1x32 .f32) (main_arg9 : FVec F S1 .f32) : IVec S_ 1 :=
  let main_v0 : FVec F S65536x1260 .f32 := Host.absf main_arg0
  let main_cst : FVec F S_ .f32 := constant S_ .f32 0x7F800000#32
  let main_v1 : FVec F S65536x1260 .f32 := broadcastInDim S65536x1260 ![] bcast_S_S65536x1260 main_cst
  let main_v2 : IVec S65536x1260 1 := cmpf .olt main_v0 main_v1
  let main_c : IVec S_ 1 := constantI S_ 1 1#1
  let main_v3 : IVec S_ 1 := (fun x v => Host.reduce IntOp.andi x v reducesTo_S65536x1260_S_d0_1 h_S_) main_v2 main_c
  let main_v4 : FVec F S65536x1260 .f32 := Host.absf main_arg1
  let main_cst_0 : FVec F S_ .f32 := constant S_ .f32 0x7F800000#32
  let main_v5 : FVec F S65536x1260 .f32 := broadcastInDim S65536x1260 ![] bcast_S_S65536x1260 main_cst_0
  let main_v6 : IVec S65536x1260 1 := cmpf .olt main_v4 main_v5
  let main_c_1 : IVec S_ 1 := constantI S_ 1 1#1
  let main_v7 : IVec S_ 1 := (fun x v => Host.reduce IntOp.andi x v reducesTo_S65536x1260_S_d0_1 h_S_) main_v6 main_c_1
  let main_v8 : IVec S_ 1 := andi main_v3 main_v7
  let main_v9 : FVec F S128x1260 .f32 := Host.absf main_arg2
  let main_cst_2 : FVec F S_ .f32 := constant S_ .f32 0x7F800000#32
  let main_v10 : FVec F S128x1260 .f32 := broadcastInDim S128x1260 ![] bcast_S_S128x1260 main_cst_2
  let main_v11 : IVec S128x1260 1 := cmpf .olt main_v9 main_v10
  let main_c_3 : IVec S_ 1 := constantI S_ 1 1#1
  let main_v12 : IVec S_ 1 := (fun x v => Host.reduce IntOp.andi x v reducesTo_S128x1260_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_v13 main_v16
-- ==== Kernel.lean ====
abbrev S65536x1260 : Shape := ⟨2, ![65536, 1260]⟩
abbrev S128x1260 : Shape := ⟨2, ![128, 1260]⟩
abbrev S128 : Shape := ⟨1, ![128]⟩
abbrev S32x256 : Shape := ⟨2, ![32, 256]⟩
abbrev S32 : Shape := ⟨1, ![32]⟩
abbrev S32x32 : Shape := ⟨2, ![32, 32]⟩
abbrev S1x32 : Shape := ⟨2, ![1, 32]⟩
abbrev S1 : Shape := ⟨1, ![1]⟩
abbrev S1260x128 : Shape := ⟨2, ![1260, 128]⟩
abbrev S256x32 : Shape := ⟨2, ![256, 32]⟩
abbrev S32x1 : Shape := ⟨2, ![32, 1]⟩
abbrev S1x128 : Shape := ⟨2, ![1, 128]⟩
abbrev S1x1 : Shape := ⟨2, ![1, 1]⟩
abbrev S65536x1 : Shape := ⟨2, ![65536, 1]⟩
abbrev S1024x1260 : Shape := ⟨2, ![1024, 1260]⟩
abbrev S1024x1 : Shape := ⟨2, ![1024, 1]⟩
abbrev S1024x128 : Shape := ⟨2, ![1024, 128]⟩
abbrev S1024x256 : Shape := ⟨2, ![1024, 256]⟩
abbrev S1024x32 : Shape := ⟨2, ![1024, 32]⟩

abbrev nBuf : Space → Nat
  | .hbm => 19
  | .vmem => 14
  | .smem => 0
  | _ => 0

abbrev bufTy : (tb : Table) → Fin (tcTables nBuf tb) → BufTy
  | .hbm, ⟨0, _⟩ => ⟨S65536x1260, .f32⟩
  | .hbm, ⟨1, _⟩ => ⟨S65536x1260, .f32⟩
  | .hbm, ⟨2, _⟩ => ⟨S128x1260, .f32⟩
  | .hbm, ⟨3, _⟩ => ⟨S128, .f32⟩
  | .hbm, ⟨4, _⟩ => ⟨S32x256, .f32⟩
  | .hbm, ⟨5, _⟩ => ⟨S32, .f32⟩
  | .hbm, ⟨6, _⟩ => ⟨S32x32, .f32⟩
  | .hbm, ⟨7, _⟩ => ⟨S32, .f32⟩
  | .hbm, ⟨8, _⟩ => ⟨S1x32, .f32⟩
  | .hbm, ⟨9, _⟩ => ⟨S1, .f32⟩
  | .hbm, ⟨10, _⟩ => ⟨S1260x128, .f32⟩
  | .hbm, ⟨11, _⟩ => ⟨S256x32, .f32⟩
  | .hbm, ⟨12, _⟩ => ⟨S32x32, .f32⟩
  | .hbm, ⟨13, _⟩ => ⟨S32x1, .f32⟩
  | .hbm, ⟨14, _⟩ => ⟨S1x128, .f32⟩
  | .hbm, ⟨15, _⟩ => ⟨S1x32, .f32⟩
  | .hbm, ⟨16, _⟩ => ⟨S1x32, .f32⟩
  | .hbm, ⟨17, _⟩ => ⟨S1x1, .f32⟩
  | .hbm, ⟨18, _⟩ => ⟨S65536x1, .f32⟩
  | .local _ .vmem, ⟨0, _⟩ => ⟨S1024x1260, .f32⟩
  | .local _ .vmem, ⟨1, _⟩ => ⟨S1024x1260, .f32⟩
  | .local _ .vmem, ⟨2, _⟩ => ⟨S1024x1260, .f32⟩
  | .local _ .vmem, ⟨3, _⟩ => ⟨S1024x1260, .f32⟩
  | .local _ .vmem, ⟨4, _⟩ => ⟨S1260x128, .f32⟩
  | .local _ .vmem, ⟨5, _⟩ => ⟨S1x128, .f32⟩
  | .local _ .vmem, ⟨6, _⟩ => ⟨S256x32, .f32⟩
  | .local _ .vmem, ⟨7, _⟩ => ⟨S1x32, .f32⟩
  | .local _ .vmem, ⟨8, _⟩ => ⟨S32x32, .f32⟩
  | .local _ .vmem, ⟨9, _⟩ => ⟨S1x32, .f32⟩
  | .local _ .vmem, ⟨10, _⟩ => ⟨S32x1, .f32⟩
  | .local _ .vmem, ⟨11, _⟩ => ⟨S1x1, .f32⟩
  | .local _ .vmem, ⟨12, _⟩ => ⟨S1024x1, .f32⟩
  | .local _ .vmem, ⟨13, _⟩ => ⟨S1024x1, .f32⟩
  | _, _ => ⟨S65536x1260, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1260 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1260 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1260x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  transposes_S128x1260_S1260x128_1_0 : S128x1260.Transposes [1, 0] S1260x128
  transposes_S32x256_S256x32_1_0 : S32x256.Transposes [1, 0] S256x32
  transposes_S32x32_S32x32_1_0 : S32x32.Transposes [1, 0] S32x32
  transposes_S1x32_S32x1_1_0 : S1x32.Transposes [1, 0] S32x1
  shapeCasts_S128_S1x128 : S128.ShapeCasts S1x128
  shapeCasts_S32_S1x32 : S32.ShapeCasts S1x32
  shapeCasts_S1_S1x1 : S1.ShapeCasts S1x1
  inb_S1260x128_S1260x128_0_0 : ∀ a, (![0, 0] : Fin 2 → Nat) a + S1260x128.size a ≤ S1260x128.size a
  h_S1260x128 : 0 < S1260x128.numel
  shapeCasts_S1260x128_S1260x128 : S1260x128.ShapeCasts S1260x128
  bitsLt_bf16_f32 : FTy.bits .bf16 < FTy.bits .f32
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S1024x1260_S1024x1260_0_0 : ∀ a, (![0, 0] : Fin 2 → Nat) a + S1024x1260.size a ≤ S1024x1260.size a
  h_S1024x1260 : 0 < S1024x1260.numel
  broadcasts_S1x128_S1024x128 : S1x128.Broadcasts S1024x128
  concatenates_S1024x128_S1024x128_S1024x256_d1 : Shape.Concatenates [S1024x128, S1024x128] S1024x256 1
  inb_S256x32_S256x32_0_0 : ∀ a, (![0, 0] : Fin 2 → Nat) a + S256x32.size a ≤ S256x32.size a
  h_S256x32 : 0 < S256x32.numel
  shapeCasts_S256x32_S256x32 : S256x32.ShapeCasts S256x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S1024x32 : S1x32.Broadcasts S1024x32
  inb_S32x32_S32x32_0_0 : ∀ a, (![0, 0] : Fin 2 → Nat) a + S32x32.size a ≤ S32x32.size a
  h_S32x32 : 0 < S32x32.numel
  shapeCasts_S32x32_S32x32 : S32x32.ShapeCasts S32x32
  inb_S32x1_S32x1_0_0 : ∀ a, (![0, 0] : Fin 2 → Nat) a + S32x1.size a ≤ S32x1.size a
  h_S32x1 : 0 < S32x1.numel
  shapeCasts_S32x1_S32x1 : S32x1.ShapeCasts S32x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x1 : S1x1.Broadcasts S1024x1
  inb_S1024x1_S1024x1_0_0 : ∀ a, (![0, 0] : Fin 2 → Nat) a + S1024x1.size a ≤ S1024x1.size a
  h_S1024x1 : 0 < S1024x1.numel
  dot_S1024x1260_S1260x128_S1024x128_1_0_0_1_n_n_wf : DotDims.WF S1024x1260 S1260x128 S1024x128 [1] [0] [0] [1] [] []
  dot_S1024x256_S256x32_S1024x32_1_0_0_1_n_n_wf : DotDims.WF S1024x256 S256x32 S1024x32 [1] [0] [0] [1] [] []
  dot_S1024x32_S32x32_S1024x32_1_0_0_1_n_n_wf : DotDims.WF S1024x32 S32x32 S1024x32 [1] [0] [0] [1] [] []
  dot_S1024x32_S32x1_S1024x1_1_0_0_1_n_n_wf : DotDims.WF S1024x32 S32x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1260.size a ≤ S65536x1260.size a
  hwx0_0 : ∀ i : grid0.Coords, EltTy.bits .f32 = 32 ∨ (Rect.block (s := S65536x1260) S1024x1260.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1260.size a ≤ S65536x1260.size a
  hwx0_1 : ∀ i : grid0.Coords, EltTy.bits .f32 = 32 ∨ (Rect.block (s := S65536x1260) S1024x1260.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1260x128.size a ≤ S1260x128.size a
  hwx0_2 : ∀ i : grid0.Coords, EltTy.bits .f32 = 32 ∨ (Rect.block (s := S1260x128) S1260x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x32.size a ≤ S256x32.size a
  hwx0_4 : ∀ i : grid0.Coords, EltTy.bits .f32 = 32 ∨ (Rect.block (s := S256x32) S256x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x32.size a ≤ S1x32.size a
  hwx0_5 : ∀ i : grid0.Coords, EltTy.bits .f32 = 32 ∨ (Rect.block (s := S1x32) S1x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x32.size a ≤ S32x32.size a
  hwx0_6 : ∀ i : grid0.Coords, EltTy.bits .f32 = 32 ∨ (Rect.block (s := S32x32) S32x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x32.size a ≤ S1x32.size a
  hwx0_7 : ∀ i : grid0.Coords, EltTy.bits .f32 = 32 ∨ (Rect.block (s := S1x32) S1x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S32x1.size a ≤ S32x1.size a
  hwx0_8 : ∀ i : grid0.Coords, EltTy.bits .f32 = 32 ∨ (Rect.block (s := S32x1) S32x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1.size a ≤ S1x1.size a
  hwx0_9 : ∀ i : grid0.Coords, EltTy.bits .f32 = 32 ∨ (Rect.block (s := S1x1) S1x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1024x1.size a ≤ S65536x1.size a
  hwx0_10 : ∀ i : grid0.Coords, EltTy.bits .f32 = 32 ∨ (Rect.block (s := S65536x1) S1024x1.size (cc0_transform_10 i) (hinb0_10 i)).WholeWords (EltTy.packing .f32)

variable [Facts₀]

def dot_S1024x1260_S1260x128_S1024x128_1_0_0_1_n_n : DotDims S1024x1260 S1260x128 S1024x128 where
  lhsContracting := [1]
  rhsContracting := [0]
  lhsNonContracting := [0]
  rhsNonContracting := [1]
  lhsBatch := []
  rhsBatch := []
  wf := dot_S1024x1260_S1260x128_S1024x128_1_0_0_1_n_n_wf
def dot_S1024x256_S256x32_S1024x32_1_0_0_1_n_n : DotDims S1024x256 S256x32 S1024x32 where
  lhsContracting := [1]
  rhsContracting := [0]
  lhsNonContracting := [0]
  rhsNonContracting := [1]
  lhsBatch := []
  rhsBatch := []
  wf := dot_S1024x256_S256x32_S1024x32_1_0_0_1_n_n_wf
def dot_S1024x32_S32x32_S1024x32_1_0_0_1_n_n : DotDims S1024x32 S32x32 S1024x32 where
  lhsContracting := [1]
  rhsContracting := [0]
  lhsNonContracting := [0]
  rhsNonContracting := [1]
  lhsBatch := []
  rhsBatch := []
  wf := dot_S1024x32_S32x32_S1024x32_1_0_0_1_n_n_wf
def dot_S1024x32_S32x1_S1024x1_1_0_0_1_n_n : DotDims S1024x32 S32x1 S1024x1 where
  lhsContracting := [1]
  rhsContracting := [0]
  lhsNonContracting := [0]
  rhsNonContracting := [1]
  lhsBatch := []
  rhsBatch := []
  wf := dot_S1024x32_S32x1_S1024x1_1_0_0_1_n_n_wf

abbrev win0_0 : Pipeline.Window sig grid0 :=
  Pipeline.Window.ofSpec (Memref.whole main_arg0) S1024x1260.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1260.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1260x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S256x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S32x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S1x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S32x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v7) S1x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v8) S1024x1.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S65536x1260 : Shape := ⟨2, ![65536, 1260]⟩
abbrev S128x1260 : Shape := ⟨2, ![128, 1260]⟩
abbrev S128 : Shape := ⟨1, ![128]⟩
abbrev S32x256 : Shape := ⟨2, ![32, 256]⟩
abbrev S32 : Shape := ⟨1, ![32]⟩
abbrev S32x32 : Shape := ⟨2, ![32, 32]⟩
abbrev S1x32 : Shape := ⟨2, ![1, 32]⟩
abbrev S1 : Shape := ⟨1, ![1]⟩
abbrev S1260x128 : Shape := ⟨2, ![1260, 128]⟩
abbrev S65536x128 : Shape := ⟨2, ![65536, 128]⟩
abbrev S1x128 : Shape := ⟨2, ![1, 128]⟩
abbrev S_ : Shape := ⟨0, ![]⟩
abbrev S65536x256 : Shape := ⟨2, ![65536, 256]⟩
abbrev S256x32 : Shape := ⟨2, ![256, 32]⟩
abbrev S65536x32 : Shape := ⟨2, ![65536, 32]⟩
abbrev S32x1 : Shape := ⟨2, ![32, 1]⟩
abbrev S65536x1 : Shape := ⟨2, ![65536, 1]⟩
abbrev S1x1 : Shape := ⟨2, ![1, 1]⟩

abbrev nBuf : Space → Nat
  | .hbm => 76
  | .vmem => 0
  | .smem => 0
  | _ => 0

abbrev bufTy : (tb : Table) → Fin (tcTables nBuf tb) → BufTy
  | .hbm, ⟨0, _⟩ => ⟨S65536x1260, .f32⟩
  | .hbm, ⟨1, _⟩ => ⟨S65536x1260, .f32⟩
  | .hbm, ⟨2, _⟩ => ⟨S128x1260, .f32⟩
  | .hbm, ⟨3, _⟩ => ⟨S128, .f32⟩
  | .hbm, ⟨4, _⟩ => ⟨S32x256, .f32⟩
  | .hbm, ⟨5, _⟩ => ⟨S32, .f32⟩
  | .hbm, ⟨6, _⟩ => ⟨S32x32, .f32⟩
  | .hbm, ⟨7, _⟩ => ⟨S32, .f32⟩
  | .hbm, ⟨8, _⟩ => ⟨S1x32, .f32⟩
  | .hbm, ⟨9, _⟩ => ⟨S1, .f32⟩
  | .hbm, ⟨10, _⟩ => ⟨S1260x128, .f32⟩
  | .hbm, ⟨11, _⟩ => ⟨S65536x128, .f32⟩
  | .hbm, ⟨12, _⟩ => ⟨S1x128, .f32⟩
  | .hbm, ⟨13, _⟩ => ⟨S65536x128, .f32⟩
  | .hbm, ⟨14, _⟩ => ⟨S65536x128, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S65536x128, .f32⟩
  | .hbm, ⟨19, _⟩ => ⟨S65536x128, .f32⟩
  | .hbm, ⟨20, _⟩ => ⟨S_, .f32⟩
  | .hbm, ⟨21, _⟩ => ⟨S65536x128, .f32⟩
  | .hbm, ⟨22, _⟩ => ⟨S65536x128, .f32⟩
  | .hbm, ⟨23, _⟩ => ⟨S1260x128, .f32⟩
  | .hbm, ⟨24, _⟩ => ⟨S65536x128, .f32⟩
  | .hbm, ⟨25, _⟩ => ⟨S1x128, .f32⟩
  | .hbm, ⟨26, _⟩ => ⟨S65536x128, .f32⟩
  | .hbm, ⟨27, _⟩ => ⟨S65536x128, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S65536x128, .f32⟩
  | .hbm, ⟨32, _⟩ => ⟨S65536x128, .f32⟩
  | .hbm, ⟨33, _⟩ => ⟨S_, .f32⟩
  | .hbm, ⟨34, _⟩ => ⟨S65536x128, .f32⟩
  | .hbm, ⟨35, _⟩ => ⟨S65536x128, .f32⟩
  | .hbm, ⟨36, _⟩ => ⟨S65536x256, .f32⟩
  | .hbm, ⟨37, _⟩ => ⟨S256x32, .f32⟩
  | .hbm, ⟨38, _⟩ => ⟨S65536x32, .f32⟩
  | .hbm, ⟨39, _⟩ => ⟨S1x32, .f32⟩
  | .hbm, ⟨40, _⟩ => ⟨S65536x32, .f32⟩
  | .hbm, ⟨41, _⟩ => ⟨S65536x32, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S65536x32, .f32⟩
  | .hbm, ⟨46, _⟩ => ⟨S65536x32, .f32⟩
  | .hbm, ⟨47, _⟩ => ⟨S_, .f32⟩
  | .hbm, ⟨48, _⟩ => ⟨S65536x32, .f32⟩
  | .hbm, ⟨49, _⟩ => ⟨S65536x32, .f32⟩
  | .hbm, ⟨50, _⟩ => ⟨S32x32, .f32⟩
  | .hbm, ⟨51, _⟩ => ⟨S65536x32, .f32⟩
  | .hbm, ⟨52, _⟩ => ⟨S1x32, .f32⟩
  | .hbm, ⟨53, _⟩ => ⟨S65536x32, .f32⟩
  | .hbm, ⟨54, _⟩ => ⟨S65536x32, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S65536x32, .f32⟩
  | .hbm, ⟨59, _⟩ => ⟨S65536x32, .f32⟩
  | .hbm, ⟨60, _⟩ => ⟨S_, .f32⟩
  | .hbm, ⟨61, _⟩ => ⟨S65536x32, .f32⟩
  | .hbm, ⟨62, _⟩ => ⟨S65536x32, .f32⟩
  | .hbm, ⟨63, _⟩ => ⟨S32x1, .f32⟩
  | .hbm, ⟨64, _⟩ => ⟨S65536x1, .f32⟩
  | .hbm, ⟨65, _⟩ => ⟨S1x1, .f32⟩
  | .hbm, ⟨66, _⟩ => ⟨S65536x1, .f32⟩
  | .hbm, ⟨67, _⟩ => ⟨S65536x1, .f32⟩
  | .hbm, ⟨68, _⟩ => ⟨S65536x1, .f32⟩
  | .hbm, ⟨69, _⟩ => ⟨S65536x1, .f32⟩
  | .hbm, ⟨70, _⟩ => ⟨S_, .f32⟩
  | .hbm, ⟨71, _⟩ => ⟨S65536x1, .f32⟩
  | .hbm, ⟨72, _⟩ => ⟨S65536x1, .f32⟩
  | .hbm, ⟨73, _⟩ => ⟨S_, .f32⟩
  | .hbm, ⟨74, _⟩ => ⟨S65536x1, .f32⟩
  | .hbm, ⟨75, _⟩ => ⟨S65536x1, .f32⟩
  | _, _ => ⟨S65536x1260, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_cst_0 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_cst_2 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_cst_3 : Ref sig .tc := ⟨.hbm, 42, rfl⟩
abbrev main_cst_4 : Ref sig .tc := ⟨.hbm, 43, rfl⟩
abbrev main_call2_v0 : Ref sig .tc := ⟨.hbm, 44, rfl⟩
abbrev main_call2_v1 : Ref sig .tc := ⟨.hbm, 45, rfl⟩
abbrev main_call2_v2 : Ref sig .tc := ⟨.hbm, 46, rfl⟩
abbrev main_call2_v3 : Ref sig .tc := ⟨.hbm, 47, rfl⟩
abbrev main_call2_v4 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_cst_5 : Ref sig .tc := ⟨.hbm, 55, rfl⟩
abbrev main_cst_6 : Ref sig .tc := ⟨.hbm, 56, rfl⟩
abbrev main_call3_v0 : Ref sig .tc := ⟨.hbm, 57, rfl⟩
abbrev main_call3_v1 : Ref sig .tc := ⟨.hbm, 58, rfl⟩
abbrev main_call3_v2 : Ref sig .tc := ⟨.hbm, 59, rfl⟩
abbrev main_call3_v3 : Ref sig .tc := ⟨.hbm, 60, rfl⟩
abbrev main_call3_v4 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_cst_7 : Ref sig .tc := ⟨.hbm, 70, rfl⟩
abbrev main_v32 : Ref sig .tc := ⟨.hbm, 71, rfl⟩
abbrev main_v33 : Ref sig .tc := ⟨.hbm, 72, rfl⟩
abbrev main_cst_8 : Ref sig .tc := ⟨.hbm, 73, rfl⟩
abbrev main_v34 : Ref sig .tc := ⟨.hbm, 74, rfl⟩
abbrev main_v35 : Ref sig .tc := ⟨.hbm, 75, rfl⟩

abbrev nD : Nat := 1
abbrev τ : Topo := Topo.v7x

variable {F : FTy → Type} [FloatOps F]

class Facts₀ : Prop where
  transposes_S128x1260_S1260x128_1_0 : S128x1260.Transposes [1, 0] S1260x128
  bcast_S128_S1x128_1 : S128.BroadcastsInDim S1x128 (![1] : Fin 1 → Fin S1x128.rank)
  bcast_S1x128_S65536x128_0_1 : S1x128.BroadcastsInDim S65536x128 (![0, 1] : Fin 2 → Fin S65536x128.rank)
  bcast_S_S65536x128 : S_.BroadcastsInDim S65536x128 (![] : Fin 0 → Fin S65536x128.rank)
  concatenates_S65536x128_S65536x128_S65536x256_d1 : Shape.Concatenates [S65536x128, S65536x128] S65536x256 1
  transposes_S32x256_S256x32_1_0 : S32x256.Transposes [1, 0] S256x32
  bcast_S32_S1x32_1 : S32.BroadcastsInDim S1x32 (![1] : Fin 1 → Fin S1x32.rank)
  bcast_S1x32_S65536x32_0_1 : S1x32.BroadcastsInDim S65536x32 (![0, 1] : Fin 2 → Fin S65536x32.rank)
  bcast_S_S65536x32 : S_.BroadcastsInDim S65536x32 (![] : Fin 0 → Fin S65536x32.rank)
  transposes_S32x32_S32x32_1_0 : S32x32.Transposes [1, 0] S32x32
  transposes_S1x32_S32x1_1_0 : S1x32.Transposes [1, 0] S32x1
  bcast_S1_S1x1_1 : S1.BroadcastsInDim S1x1 (![1] : Fin 1 → Fin S1x1.rank)
  bcast_S1x1_S65536x1_0_1 : S1x1.BroadcastsInDim S65536x1 (![0, 1] : Fin 2 → Fin S65536x1.rank)
  bcast_S_S65536x1 : S_.BroadcastsInDim S65536x1 (![] : Fin 0 → Fin S65536x1.rank)
  dot_S65536x1260_S1260x128_S65536x128_1_0_0_1_n_n_wf : DotDims.WF S65536x1260 S1260x128 S65536x128 [1] [0] [0] [1] [] []
  dot_S65536x256_S256x32_S65536x32_1_0_0_1_n_n_wf : DotDims.WF S65536x256 S256x32 S65536x32 [1] [0] [0] [1] [] []
  dot_S65536x32_S32x32_S65536x32_1_0_0_1_n_n_wf : DotDims.WF S65536x32 S32x32 S65536x32 [1] [0] [0] [1] [] []
  dot_S65536x32_S32x1_S65536x1_1_0_0_1_n_n_wf : DotDims.WF S65536x32 S32x1 S65536x1 [1] [0] [0] [1] [] []

variable [Facts₀]

def dot_S65536x1260_S1260x128_S65536x128_1_0_0_1_n_n : DotDims S65536x1260 S1260x128 S65536x128 where
  lhsContracting := [1]
  rhsContracting := [0]
  lhsNonContracting := [0]
  rhsNonContracting := [1]
  lhsBatch := []
  rhsBatch := []
  wf := dot_S65536x1260_S1260x128_S65536x128_1_0_0_1_n_n_wf
def dot_S65536x256_S256x32_S65536x32_1_0_0_1_n_n : DotDims S65536x256 S256x32 S65536x32 where
  lhsContracting := [1]
  rhsContracting := [0]
  lhsNonContracting := [0]
  rhsNonContracting := [1]
  lhsBatch := []
  rhsBatch := []
  wf := dot_S65536x256_S256x32_S65536x32_1_0_0_1_n_n_wf
def dot_S65536x32_S32x32_S65536x32_1_0_0_1_n_n : DotDims S65536x32 S32x32 S65536x32 where
  lhsContracting := [1]
  rhsContracting := [0]
  lhsNonContracting := [0]
  rhsNonContracting := [1]
  lhsBatch := []
  rhsBatch := []
  wf := dot_S65536x32_S32x32_S65536x32_1_0_0_1_n_n_wf
def dot_S65536x32_S32x1_S65536x1_1_0_0_1_n_n : DotDims S65536x32 S32x1 S65536x1 where
  lhsContracting := [1]
  rhsContracting := [0]
  lhsNonContracting := [0]
  rhsNonContracting := [1]
  lhsBatch := []
  rhsBatch := []
  wf := dot_S65536x32_S32x1_S65536x1_1_0_0_1_n_n_wf

class Facts : Prop extends Facts₀ where

variable [Facts]
-- ==== Proof.LibRowLayers.lean ====
/-
  Layers of a row-wise network read at an index, at the exact instance (floats read as extended reals).

  Every layer here sends a matrix of m rows to a matrix of m rows, and row r of the result reads row r of the
  matrix operands only. The readings are stated for an arbitrary number of rows, so they serve a block of rows and
  the whole array alike.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember
import Idealize.ShloMosaic.Lib.IdealHost

noncomputable section

open scoped BigOperators

namespace RowLayers

open Idealize.ShloMosaic Idealize.ShloMosaic.ValueIdx

variable {m k n : ℕ}

/-- Putting column c back into the reduced index r of a reduction along the columns gives (r, c). -/
theorem lift_cols (hred : (⟨2, ![m, k]⟩ : Shape).Reduces [1] ⟨1, ![m]⟩) (r : Fin m)
    (c : Fin ((⟨2, ![m, k]⟩ : Shape).size 1)) : hred.lift (ix1 r) c = ix2 r (⟨c.val, c.isLt⟩ : Fin k) := by
  funext a; apply Fin.ext
  fin_cases a <;> rfl

/-- The sum of a row's squares: a lane reduction of x * x along the columns, read at row r. -/
theorem rowSquares_apply (hred : (⟨2, ![m, k]⟩ : Shape).Reduces [1] ⟨1, ![m]⟩) (hfmt : FKind.Formats FTy.f32)
    (hacc : (0x00000000#32 : BitVec FTy.f32.bits) = FKind.add.neutral .f32 hfmt)
    (x : FVec Ideal ⟨2, ![m, k]⟩ .f32) (r : Fin m) :
    multiReduction .add [1] ⟨1, ![m]⟩ (mulf x x) 0x00000000#32 hred hfmt hacc (ix1 r)
      = ∑ c : Fin k, x (ix2 r c) * x (ix2 r c) := by
  rw [Ideal.multiReduction_add_single]
  refine Finset.sum_congr rfl fun c _ => ?_
  rw [lift_cols]; rfl

/-- A vector of m entries cast to a column reads, at (r, 0), entry r. -/
theorem column_apply {α : Type} (hsc : (⟨1, ![m]⟩ : Shape).ShapeCasts ⟨2, ![m, 1]⟩) (v : (⟨1, ![m]⟩ : Shape).Idx → α)
    (r : Fin m) (u : Fin 1) : shapeCast ⟨2, ![m, 1]⟩ v hsc (ix2 r u) = v (ix1 r) :=
  shapeCast_apply v hsc _ _ (by
    have hu : u.val = 0 := by omega
    rw [Shape.rowMajor_val_two, Shape.rowMajor_val_one]
    show r.val = r.val * 1 + u.val
    rw [hu]; omega)

/-- A column broadcast along the rows' entries reads, at (r, j), the column's entry r. -/
theorem broadcastColumn_apply {α : Type} (hbc : (⟨2, ![m, 1]⟩ : Shape).Broadcasts ⟨2, ![m, k]⟩)
    (v : (⟨2, ![m, 1]⟩ : Shape).Idx → α) (r : Fin m) (j : Fin k) :
    broadcastTo ⟨2, ![m, k]⟩ v hbc (ix2 r j) = v (ix2 r (0 : Fin 1)) := by
  refine broadcastTo_apply v hbc (ix2 r j) (ix2 r (0 : Fin 1)) fun ax => ?_
  match ax with
  | ⟨0, _⟩ =>
    show r.val = if m = 1 then 0 else r.val
    split
    · have := r.isLt; omega
    · rfl
  | ⟨1, _⟩ => rfl

/-- A row divided by the larger of its Euclidean length and a floor e: the tiled spelling, at (r, j). -/
theorem rowNormalize_apply (e : BitVec 32) (hred : (⟨2, ![m, k]⟩ : Shape).Reduces [1] ⟨1, ![m]⟩)
    (hfmt : FKind.Formats FTy.f32) (hacc : (0x00000000#32 : BitVec FTy.f32.bits) = FKind.add.neutral .f32 hfmt)
    (hsc : (⟨1, ![m]⟩ : Shape).ShapeCasts ⟨2, ![m, 1]⟩) (hbc : (⟨2, ![m, 1]⟩ : Shape).Broadcasts ⟨2, ![m, k]⟩)
    (x : FVec Ideal ⟨2, ![m, k]⟩ .f32) (r : Fin m) (j : Fin k) :
    divf x (broadcastTo ⟨2, ![m, k]⟩
        (maximumf (sqrt (shapeCast ⟨2, ![m, 1]⟩ (multiReduction .add [1] ⟨1, ![m]⟩ (mulf x x) 0x00000000#32 hred hfmt hacc) hsc))
          (broadcast ⟨2, ![m, 1]⟩ (Scalar.ofBits (F := Ideal) .f32 e))) hbc) (ix2 r j)
      = Ideal.div (x (ix2 r j))
          (max (Ideal.sqrt (∑ c : Fin k, x (ix2 r c) * x (ix2 r c))) (Ideal.ofBits .f32 e)) := by
  rw [divf_apply, broadcastColumn_apply, maximumf_apply]
  show Ideal.div _ (max (Ideal.sqrt (shapeCast _ _ hsc (ix2 r (0 : Fin 1)))) _) = _
  rw [column_apply, rowSquares_apply]
  rfl

/-- A vector of n entries cast to one row and broadcast down m rows reads, at (r, j), entry j. -/
theorem biasRow_apply {α : Type} (hsc : (⟨1, ![n]⟩ : Shape).ShapeCasts ⟨2, ![1, n]⟩)
    (hbc : (⟨2, ![1, n]⟩ : Shape).Broadcasts ⟨2, ![m, n]⟩) (b : (⟨1, ![n]⟩ : Shape).Idx → α) (r : Fin m) (j : Fin n) :
    broadcastTo ⟨2, ![m, n]⟩ (shapeCast ⟨2, ![1, n]⟩ b hsc) hbc (ix2 r j) = b (ix1 j) := by
  rw [broadcastTo_1b_ab_apply, shapeCast_a_1a_apply]

/-- One row broadcast down m rows reads, at (r, j), the row's entry j. -/
theorem oneRow_apply {α : Type} (hsc : (⟨2, ![1, n]⟩ : Shape).ShapeCasts ⟨2, ![1, n]⟩)
    (hbc : (⟨2, ![1, n]⟩ : Shape).Broadcasts ⟨2, ![m, n]⟩) (v : (⟨2, ![1, n]⟩ : Shape).Idx → α) (r : Fin m) (j : Fin n) :
    broadcastTo ⟨2, ![m, n]⟩ (shapeCast ⟨2, ![1, n]⟩ (shapeCast ⟨2, ![1, n]⟩ v hsc) hsc) hbc (ix2 r j) = v (ix2 (0 : Fin 1) j) := by
  rw [broadcastTo_1b_ab_apply, shapeCast_self, shapeCast_self]

/-! ## The matrix unit's product with the right operand contracted on its last axis -/

/-- An m×k matrix times the transpose of an n×k matrix, accumulated into the zero splat, at (a, b): the sum over the
    contracted coordinate of the products of the entries. -/
theorem matmulT_apply {φ₁ φ₂ : FTy} (prec : Option ContractPrecision)
    (A : FVec Ideal ⟨2, ![m, k]⟩ φ₁) (B : FVec Ideal ⟨2, ![n, k]⟩ φ₂) (a : Fin m) (b : Fin n) :
    matmul (DotDims.transposedRhs m k n) prec A B (constant ⟨2, ![m, n]⟩ .f32 0x00000000#32) (ix2 a b)
      = ∑ c : Fin k, A (ix2 a c) * B (ix2 b c) := by
  refine (Ideal.matmul_constant_zero_apply (DotDims.transposedRhs m k n) prec A B (ix2 a b)).trans ?_
  rw [← Equiv.sum_comp (contrEquiv1 (DotDims.transposedRhs m k n) k rfl rfl).symm]
  refine Finset.sum_congr rfl fun c _ => ?_
  have c2 := contrEquiv1_symm_val (DotDims.transposedRhs m k n) k rfl rfl c
  have l2 : (DotDims.transposedRhs m k n).lhsIdx (ix2 a b) ((contrEquiv1 _ k rfl rfl).symm c) = ix2 a c := by
    funext ax; apply Fin.ext
    match ax with
    | ⟨0, _⟩ => simp [DotDims.lhsIdx, DotDims.transposedRhs]; rfl
    | ⟨1, _⟩ => simp [DotDims.lhsIdx, DotDims.transposedRhs]; exact c2
  have r2 : (DotDims.transposedRhs m k n).rhsIdx (ix2 a b) ((contrEquiv1 _ k rfl rfl).symm c) = ix2 b c := by
    funext ax; apply Fin.ext
    match ax with
    | ⟨0, _⟩ => simp [DotDims.rhsIdx, DotDims.transposedRhs]; rfl
    | ⟨1, _⟩ => simp [DotDims.rhsIdx, DotDims.transposedRhs]; exact c2
  rw [l2, r2]

/-- The affine layer in the tiled spelling — operands narrowed (the identity here), multiplied on the matrix unit
    into a zero accumulator, plus the bias vector as a row broadcast down the rows — at (r, j). -/
theorem affineRows_apply {φ₁ : FTy} (h16 : FTy.bf16.bits < FTy.f32.bits)
    (hsc : (⟨1, ![n]⟩ : Shape).ShapeCasts ⟨2, ![1, n]⟩) (hbc : (⟨2, ![1, n]⟩ : Shape).Broadcasts ⟨2, ![m, n]⟩)
    (x : FVec Ideal ⟨2, ![m, k]⟩ φ₁) (w : FVec Ideal ⟨2, ![n, k]⟩ .f32) (b : FVec Ideal ⟨1, ![n]⟩ .f32)
    (r : Fin m) (j : Fin n) :
    addf (matmul (DotDims.transposedRhs m k n) none x (truncf .bf16 w h16) (constant ⟨2, ![m, n]⟩ .f32 0x00000000#32))
        (broadcastTo ⟨2, ![m, n]⟩ (shapeCast ⟨2, ![1, n]⟩ b hsc) hbc) (ix2 r j)
      = (∑ c : Fin k, x (ix2 r c) * w (ix2 j c)) + b (ix1 j) := by
  rw [addf_apply, matmulT_apply, biasRow_apply]
  rfl

/-! ## Two matrices laid side by side -/

/-- Left of the seam a side-by-side concatenation reads the first matrix. -/
theorem catCols_left {α : Type} {p q t : ℕ}
    (h : Shape.Concatenates [(⟨2, ![m, p]⟩ : Shape), ⟨2, ![m, q]⟩] ⟨2, ![m, t]⟩ 1)
    (a : (⟨2, ![m, p]⟩ : Shape).Idx → α) (b : (⟨2, ![m, q]⟩ : Shape).Idx → α) (r : Fin m) (j : Fin t) (c : Fin p)
    (hc : c.val = j.val) :
    concatenate ⟨2, ![m, t]⟩ 1 [⟨⟨2, ![m, p]⟩, a⟩, ⟨⟨2, ![m, q]⟩, b⟩] h (ix2 r j) = a (ix2 r c) :=
  concatenate_pair_apply_left 1 a b h (ix2 r j) rfl (ix2 r c) (fun ax => by
    match ax with
    | ⟨0, _⟩ => rfl
    | ⟨1, _⟩ => exact hc)

/-- Right of the seam it reads the second matrix, p columns back. -/
theorem catCols_right {α : Type} {p q t : ℕ}
    (h : Shape.Concatenates [(⟨2, ![m, p]⟩ : Shape), ⟨2, ![m, q]⟩] ⟨2, ![m, t]⟩ 1)
    (a : (⟨2, ![m, p]⟩ : Shape).Idx → α) (b : (⟨2, ![m, q]⟩ : Shape).Idx → α) (r : Fin m) (j : Fin t) (c : Fin q)
    (hc : c.val + p = j.val) :
    concatenate ⟨2, ![m, t]⟩ 1 [⟨⟨2, ![m, p]⟩, a⟩, ⟨⟨2, ![m, q]⟩, b⟩] h (ix2 r j) = b (ix2 r c) :=
  concatenate_pair_apply_right 1 a b h (ix2 r j) rfl rfl (ix2 r c) (fun ax hax => by
    match ax with
    | ⟨0, _⟩ => rfl
    | ⟨1, _⟩ => exact absurd rfl hax) hc

/-! ## The same layers in the whole-array spelling: the host's operations with broadcast_in_dim -/

/-- A scalar broadcast over any shape reads the scalar. -/
theorem scalarBroadcast_apply {t : Shape} (w : BitVec 32) (h : (⟨0, ![]⟩ : Shape).BroadcastsInDim t ![]) (i : t.Idx) :
    broadcastInDim t ![] h (constant (F := Ideal) ⟨0, ![]⟩ .f32 w) i = Ideal.ofBits .f32 w :=
  broadcastInDim_apply ![] h _ i ix0 (fun a => a.elim0)

/-- A vector of n entries broadcast along the columns of m rows reads, at (r, j), entry j. -/
theorem rowBroadcast_apply {α : Type} (h : (⟨1, ![n]⟩ : Shape).BroadcastsInDim ⟨2, ![m, n]⟩ ![1])
    (v : (⟨1, ![n]⟩ : Shape).Idx → α) (r : Fin m) (j : Fin n) :
    broadcastInDim ⟨2, ![m, n]⟩ ![1] h v (ix2 r j) = v (ix1 j) := by
  refine broadcastInDim_apply ![1] h v (ix2 r j) (ix1 j) fun a => ?_
  match a with
  | ⟨0, _⟩ =>
    show j.val = if n = 1 then 0 else j.val
    split
    · have := j.isLt; omega
    · rfl

/-- A vector of m entries made a column by broadcast_in_dim reads, at (r, 0), entry r. -/
theorem columnBroadcast_apply {α : Type} (h : (⟨1, ![m]⟩ : Shape).BroadcastsInDim ⟨2, ![m, 1]⟩ ![0])
    (v : (⟨1, ![m]⟩ : Shape).Idx → α) (r : Fin m) (u : Fin 1) :
    broadcastInDim ⟨2, ![m, 1]⟩ ![0] h v (ix2 r u) = v (ix1 r) := by
  refine broadcastInDim_apply ![0] h v (ix2 r u) (ix1 r) fun a => ?_
  match a with
  | ⟨0, _⟩ =>
    show r.val = if m = 1 then 0 else r.val
    split
    · have := r.isLt; omega
    · rfl

/-- A column broadcast_in_dim'd along the rows' entries reads, at (r, j), the column's entry r. -/
theorem columnAcross_apply {α : Type} (h : (⟨2, ![m, 1]⟩ : Shape).BroadcastsInDim ⟨2, ![m, k]⟩ ![0, 1])
    (v : (⟨2, ![m, 1]⟩ : Shape).Idx → α) (r : Fin m) (j : Fin k) :
    broadcastInDim ⟨2, ![m, k]⟩ ![0, 1] h v (ix2 r j) = v (ix2 r (0 : Fin 1)) := by
  refine broadcastInDim_apply ![0, 1] h v (ix2 r j) (ix2 r (0 : Fin 1)) fun a => ?_
  match a with
  | ⟨0, _⟩ =>
    show r.val = if m = 1 then 0 else r.val
    split
    · have := r.isLt; omega
    · rfl
  | ⟨1, _⟩ => rfl

/-- One row broadcast_in_dim'd down m rows reads, at (r, j), the row's entry j. -/
theorem rowDown_apply {α : Type} (h : (⟨2, ![1, n]⟩ : Shape).BroadcastsInDim ⟨2, ![m, n]⟩ ![0, 1])
    (v : (⟨2, ![1, n]⟩ : Shape).Idx → α) (r : Fin m) (j : Fin n) :
    broadcastInDim ⟨2, ![m, n]⟩ ![0, 1] h v (ix2 r j) = v (ix2 (0 : Fin 1) j) := by
  refine broadcastInDim_apply ![0, 1] h v (ix2 r j) (ix2 (0 : Fin 1) j) fun a => ?_
  match a with
  | ⟨0, _⟩ => rfl
  | ⟨1, _⟩ =>
    show j.val = if n = 1 then 0 else j.val
    split
    · have := j.isLt; omega
    · rfl

/-- The host's quotient, entry by entry. -/
theorem hostDivf_apply {s : Shape} {φ : FTy} (a b : FVec Ideal s φ) (i : s.Idx) : Host.divf a b i = Ideal.div (a i) (b i) := rfl

/-- The host's square root, entry by entry. -/
theorem hostSqrt_apply {s : Shape} {φ : FTy} (a : FVec Ideal s φ) (i : s.Idx) : Host.sqrt a i = Ideal.sqrt (a i) := rfl

/-- The host's sum of a row's squares from the zero scalar, at row r. -/
theorem hostRowSquares_apply (hrt : (⟨2, ![m, k]⟩ : Shape).ReducesTo [1] ⟨1, ![m]⟩)
    (hred : (⟨2, ![m, k]⟩ : Shape).Reduces [1] ⟨1, ![m]⟩) (hu : 0 < (⟨0, ![]⟩ : Shape).numel)
    (X : FVec Ideal ⟨2, ![m, k]⟩ .f32) (r : Fin m) :
    Host.reduceAdd (mulf X X) (constant (F := Ideal) ⟨0, ![]⟩ .f32 0x00000000#32) hrt hu (ix1 r)
      = ∑ c : Fin k, X (ix2 r c) * X (ix2 r c) := by
  simp only [Host.reduceAdd, Ideal.hostReduceAdd_def]
  rw [Ideal.hostReduceAdd_single hrt hred]
  show Ideal.ofBits .f32 0x00000000#32 + _ = _
  rw [Ideal.ofBits_zero_f32, zero_add]
  refine Finset.sum_congr rfl fun c _ => ?_
  rw [lift_cols]; rfl

/-- The whole-array row normalisation at (r, j). -/
theorem hostRowNormalize_apply (e : BitVec 32) (hrt : (⟨2, ![m, k]⟩ : Shape).ReducesTo [1] ⟨1, ![m]⟩)
    (hred : (⟨2, ![m, k]⟩ : Shape).Reduces [1] ⟨1, ![m]⟩) (hu : 0 < (⟨0, ![]⟩ : Shape).numel)
    (h0 : (⟨1, ![m]⟩ : Shape).BroadcastsInDim ⟨2, ![m, 1]⟩ ![0])
    (hs : (⟨0, ![]⟩ : Shape).BroadcastsInDim ⟨2, ![m, 1]⟩ ![])
    (h01 : (⟨2, ![m, 1]⟩ : Shape).BroadcastsInDim ⟨2, ![m, k]⟩ ![0, 1])
    (X : FVec Ideal ⟨2, ![m, k]⟩ .f32) (r : Fin m) (j : Fin k) :
    Host.divf X (broadcastInDim ⟨2, ![m, k]⟩ ![0, 1] h01
        (maximumf (Host.sqrt (broadcastInDim ⟨2, ![m, 1]⟩ ![0] h0
            (Host.reduceAdd (mulf X X) (constant (F := Ideal) ⟨0, ![]⟩ .f32 0x00000000#32) hrt hu)))
          (broadcastInDim ⟨2, ![m, 1]⟩ ![] hs (constant (F := Ideal) ⟨0, ![]⟩ .f32 e)))) (ix2 r j)
      = Ideal.div (X (ix2 r j))
          (max (Ideal.sqrt (∑ c : Fin k, X (ix2 r c) * X (ix2 r c))) (Ideal.ofBits .f32 e)) := by
  rw [hostDivf_apply, columnAcross_apply, maximumf_apply, hostSqrt_apply, columnBroadcast_apply, scalarBroadcast_apply,
    hostRowSquares_apply hrt hred]

/-- The whole-array affine layer — the weight matrix transposed, the host's plain product, plus the bias vector made
    a row and broadcast down the rows — at (r, j). -/
theorem hostAffine_apply (htr : (⟨2, ![n, k]⟩ : Shape).Transposes [1, 0] ⟨2, ![k, n]⟩)
    (h1 : (⟨1, ![n]⟩ : Shape).BroadcastsInDim ⟨2, ![1, n]⟩ ![1])
    (h01 : (⟨2, ![1, n]⟩ : Shape).BroadcastsInDim ⟨2, ![m, n]⟩ ![0, 1])
    (X : FVec Ideal ⟨2, ![m, k]⟩ .f32) (w : FVec Ideal ⟨2, ![n, k]⟩ .f32) (b : FVec Ideal ⟨1, ![n]⟩ .f32)
    (r : Fin m) (j : Fin n) :
    addf (Host.dotGeneral (DotDims.plain m k n) none X (transpose ⟨2, ![k, n]⟩ [1, 0] w htr))
        (broadcastInDim ⟨2, ![m, n]⟩ ![0, 1] h01 (broadcastInDim ⟨2, ![1, n]⟩ ![1] h1 b)) (ix2 r j)
      = (∑ c : Fin k, X (ix2 r c) * w (ix2 j c)) + b (ix1 j) := by
  rw [addf_apply, StackMember.dotGeneral_plain_apply, rowDown_apply, rowBroadcast_apply]
  refine congrArg (· + b (ix1 j)) (Finset.sum_congr rfl fun c _ => ?_)
  rw [transpose_ix2_apply]

/-! ## Rows of a block are rows of the whole

A block of mb rows is cut out of a matrix of M rows by a map σ of row numbers. Every layer above reads, in row r
of its result, row r of its matrix operands only; so if the operands of the tiled layer are the σ-rows of the operands of
the whole-array layer, its result is the σ-rows of the whole-array result. -/

/-- Row p of the block b is row σ p of the matrix B. -/
def Rows {mb M k : ℕ} (σ : Fin mb → Fin M) (b : (⟨2, ![mb, k]⟩ : Shape).Idx → EReal)
    (B : (⟨2, ![M, k]⟩ : Shape).Idx → EReal) : Prop :=
  ∀ p c, b (ix2 p c) = B (ix2 (σ p) c)

section RowsLemmas

variable {mb M : ℕ} {σ : Fin mb → Fin M}

theorem Rows.addf {k : ℕ} {φ : FTy} {a b : FVec Ideal ⟨2, ![mb, k]⟩ φ} {A B : FVec Ideal ⟨2, ![M, k]⟩ φ}
    (ha : Rows σ a A) (hb : Rows σ b B) : Rows σ (addf a b) (addf A B) := fun p c => by
  show a _ + b _ = A _ + B _
  rw [ha p c, hb p c]

theorem Rows.mulf {k : ℕ} {φ : FTy} {a b : FVec Ideal ⟨2, ![mb, k]⟩ φ} {A B : FVec Ideal ⟨2, ![M, k]⟩ φ}
    (ha : Rows σ a A) (hb : Rows σ b B) : Rows σ (mulf a b) (mulf A B) := fun p c => by
  show a _ * b _ = A _ * B _
  rw [ha p c, hb p c]

theorem Rows.subf {k : ℕ} {φ : FTy} {a b : FVec Ideal ⟨2, ![mb, k]⟩ φ} {A B : FVec Ideal ⟨2, ![M, k]⟩ φ}
    (ha : Rows σ a A) (hb : Rows σ b B) : Rows σ (subf a b) (subf A B) := fun p c => by
  show a _ - b _ = A _ - B _
  rw [ha p c, hb p c]

/-- The vector unit's tanh against the host's. -/
theorem Rows.tanh {k : ℕ} {φ : FTy} {a : FVec Ideal ⟨2, ![mb, k]⟩ φ} {A : FVec Ideal ⟨2, ![M, k]⟩ φ}
    (ha : Rows σ a A) : Rows σ (tanh a) (Host.tanh A) := fun p c => congrArg Ideal.tanh (ha p c)

/-- A narrowing of the float format is the identity on extended reals. -/
theorem Rows.truncf {k : ℕ} {φ ψ : FTy} {a : FVec Ideal ⟨2, ![mb, k]⟩ φ} {A : (⟨2, ![M, k]⟩ : Shape).Idx → EReal}
    (h : ψ.bits < φ.bits) (ha : Rows σ a A) : Rows σ (truncf ψ a h) A := ha

/-- A scalar splat over the block against the same scalar broadcast over the whole matrix. -/
theorem Rows.splat {k : ℕ} (w : BitVec 32) (h : (⟨0, ![]⟩ : Shape).BroadcastsInDim ⟨2, ![M, k]⟩ ![]) :
    Rows σ (broadcast ⟨2, ![mb, k]⟩ (Scalar.ofBits (F := Ideal) .f32 w))
      (broadcastInDim ⟨2, ![M, k]⟩ ![] h (constant (F := Ideal) ⟨0, ![]⟩ .f32 w)) := fun p c => by
  rw [scalarBroadcast_apply]; rfl

/-- The larger of a value and zero: the splat of the scalar zero against the host's broadcast of it. -/
theorem Rows.relu {k : ℕ} {a : FVec Ideal ⟨2, ![mb, k]⟩ .f32} {A : FVec Ideal ⟨2, ![M, k]⟩ .f32}
    (h : (⟨0, ![]⟩ : Shape).BroadcastsInDim ⟨2, ![M, k]⟩ ![]) (ha : Rows σ a A) :
    Rows σ (maximumf a (broadcast ⟨2, ![mb, k]⟩ (Scalar.ofBits (F := Ideal) .f32 0x00000000#32)))
      (maximumf A (broadcastInDim ⟨2, ![M, k]⟩ ![] h (constant (F := Ideal) ⟨0, ![]⟩ .f32 0x00000000#32))) := fun p c => by
  show max (a _) _ = max (A _) (broadcastInDim _ _ h _ _)
  rw [scalarBroadcast_apply, ha p c]; rfl

/-- The logistic function as one operation against its expansion 1 / (1 + exp (-x)) in the host's operations: both
    are the quotient of one by one plus the exponential of the negated argument. -/
theorem Rows.logistic {k : ℕ} {a : FVec Ideal ⟨2, ![mb, k]⟩ .f32} {A : FVec Ideal ⟨2, ![M, k]⟩ .f32}
    (h h' : (⟨0, ![]⟩ : Shape).BroadcastsInDim ⟨2, ![M, k]⟩ ![]) (ha : Rows σ a A) :
    Rows σ (logistic a)
      (Host.divf (broadcastInDim ⟨2, ![M, k]⟩ ![] h (constant (F := Ideal) ⟨0, ![]⟩ .f32 0x3F800000#32))
        (Idealize.ShloMosaic.addf (broadcastInDim ⟨2, ![M, k]⟩ ![] h' (constant (F := Ideal) ⟨0, ![]⟩ .f32 0x3F800000#32))
          (Host.exp (Host.negf A)))) := fun p c => by
  show Ideal.logistic (a _) = Ideal.div (broadcastInDim _ _ h _ _) (broadcastInDim _ _ h' _ _ + Ideal.exp (-(A _)))
  rw [scalarBroadcast_apply, Ideal.ofBits_one_f32, ha p c]
  rfl

/-- One minus a value: the splat of the scalar one against the host's broadcast of it. -/
theorem Rows.oneMinus {k : ℕ} {a : FVec Ideal ⟨2, ![mb, k]⟩ .f32} {A : FVec Ideal ⟨2, ![M, k]⟩ .f32}
    (h : (⟨0, ![]⟩ : Shape).BroadcastsInDim ⟨2, ![M, k]⟩ ![]) (ha : Rows σ a A) :
    Rows σ (Idealize.ShloMosaic.subf (broadcast ⟨2, ![mb, k]⟩ (Scalar.ofBits (F := Ideal) .f32 0x3F800000#32)) a)
      (Idealize.ShloMosaic.subf (broadcastInDim ⟨2, ![M, k]⟩ ![] h (constant (F := Ideal) ⟨0, ![]⟩ .f32 0x3F800000#32)) A) :=
  Rows.subf (Rows.splat _ h) ha

/-- A band of columns cut from both. -/
theorem Rows.sliceCols {k w : ℕ} (o : ℕ) {y : (⟨2, ![mb, k]⟩ : Shape).Idx → EReal}
    {Y : (⟨2, ![M, k]⟩ : Shape).Idx → EReal}
    (hs : (⟨2, ![mb, k]⟩ : Shape).Slices ![0, o] ⟨2, ![mb, w]⟩) (hS : (⟨2, ![M, k]⟩ : Shape).Slices ![0, o] ⟨2, ![M, w]⟩)
    (hy : Rows σ y Y) :
    Rows σ (extractStridedSlice ⟨2, ![mb, w]⟩ ![0, o] y hs) (extractStridedSlice ⟨2, ![M, w]⟩ ![0, o] Y hS) := fun p c => by
  have hlt : o + c.val < k := by
    have := hs.2 1; simp at this; omega
  rw [slice2_axis1_apply o y hs p c ⟨o + c.val, hlt⟩ rfl, slice2_axis1_apply o Y hS (σ p) c ⟨o + c.val, hlt⟩ rfl]
  exact hy p _

/-- The row normalisation. -/
theorem Rows.normalize {k : ℕ} (e : BitVec 32)
    (hred : (⟨2, ![mb, k]⟩ : Shape).Reduces [1] ⟨1, ![mb]⟩) (hfmt : FKind.Formats FTy.f32)
    (hacc : (0x00000000#32 : BitVec FTy.f32.bits) = FKind.add.neutral .f32 hfmt)
    (hsc : (⟨1, ![mb]⟩ : Shape).ShapeCasts ⟨2, ![mb, 1]⟩) (hbc : (⟨2, ![mb, 1]⟩ : Shape).Broadcasts ⟨2, ![mb, k]⟩)
    (hrt : (⟨2, ![M, k]⟩ : Shape).ReducesTo [1] ⟨1, ![M]⟩) (hRed : (⟨2, ![M, k]⟩ : Shape).Reduces [1] ⟨1, ![M]⟩)
    (hu : 0 < (⟨0, ![]⟩ : Shape).numel)
    (h0 : (⟨1, ![M]⟩ : Shape).BroadcastsInDim ⟨2, ![M, 1]⟩ ![0]) (hs : (⟨0, ![]⟩ : Shape).BroadcastsInDim ⟨2, ![M, 1]⟩ ![])
    (h01 : (⟨2, ![M, 1]⟩ : Shape).BroadcastsInDim ⟨2, ![M, k]⟩ ![0, 1])
    {x : FVec Ideal ⟨2, ![mb, k]⟩ .f32} {X : FVec Ideal ⟨2, ![M, k]⟩ .f32} (hx : Rows σ x X) :
    Rows σ
      (divf x (broadcastTo ⟨2, ![mb, k]⟩
        (maximumf (sqrt (shapeCast ⟨2, ![mb, 1]⟩ (multiReduction .add [1] ⟨1, ![mb]⟩ (Idealize.ShloMosaic.mulf x x) 0x00000000#32 hred hfmt hacc) hsc))
          (broadcast ⟨2, ![mb, 1]⟩ (Scalar.ofBits (F := Ideal) .f32 e))) hbc))
      (Host.divf X (broadcastInDim ⟨2, ![M, k]⟩ ![0, 1] h01
        (maximumf (Host.sqrt (broadcastInDim ⟨2, ![M, 1]⟩ ![0] h0
            (Host.reduceAdd (Idealize.ShloMosaic.mulf X X) (constant (F := Ideal) ⟨0, ![]⟩ .f32 0x00000000#32) hrt hu)))
          (broadcastInDim ⟨2, ![M, 1]⟩ ![] hs (constant (F := Ideal) ⟨0, ![]⟩ .f32 e))))) := fun p c => by
  rw [rowNormalize_apply, hostRowNormalize_apply e hrt hRed]
  simp only [hx p]

/-- The affine layer: the tiled product with the weight matrix contracted on its last axis against the host's plain
    product with the transposed weight matrix; the bias vector as a row, cast and broadcast against broadcast twice. -/
theorem Rows.affine {k n : ℕ} (h16 : FTy.bf16.bits < FTy.f32.bits)
    (hsc : (⟨1, ![n]⟩ : Shape).ShapeCasts ⟨2, ![1, n]⟩) (hbc : (⟨2, ![1, n]⟩ : Shape).Broadcasts ⟨2, ![mb, n]⟩)
    (htr : (⟨2, ![n, k]⟩ : Shape).Transposes [1, 0] ⟨2, ![k, n]⟩)
    (h1 : (⟨1, ![n]⟩ : Shape).BroadcastsInDim ⟨2, ![1, n]⟩ ![1])
    (h01 : (⟨2, ![1, n]⟩ : Shape).BroadcastsInDim ⟨2, ![M, n]⟩ ![0, 1])
    {φ₁ : FTy} {x : FVec Ideal ⟨2, ![mb, k]⟩ φ₁} {X : FVec Ideal ⟨2, ![M, k]⟩ .f32} (hx : Rows σ x X)
    (w : FVec Ideal ⟨2, ![n, k]⟩ .f32) (b : FVec Ideal ⟨1, ![n]⟩ .f32) :
    Rows σ
      (Idealize.ShloMosaic.addf (matmul (DotDims.transposedRhs mb k n) none x (Idealize.ShloMosaic.truncf .bf16 w h16) (constant ⟨2, ![mb, n]⟩ .f32 0x00000000#32))
        (broadcastTo ⟨2, ![mb, n]⟩ (shapeCast ⟨2, ![1, n]⟩ b hsc) hbc))
      (Idealize.ShloMosaic.addf (Host.dotGeneral (DotDims.plain M k n) none X (transpose ⟨2, ![k, n]⟩ [1, 0] w htr))
        (broadcastInDim ⟨2, ![M, n]⟩ ![0, 1] h01 (broadcastInDim ⟨2, ![1, n]⟩ ![1] h1 b))) := fun p c => by
  rw [affineRows_apply, hostAffine_apply]
  simp only [hx p]

/-- Two matrices side by side. -/
theorem Rows.catCols {p q t : ℕ} {a : (⟨2, ![mb, p]⟩ : Shape).Idx → EReal} {b : (⟨2, ![mb, q]⟩ : Shape).Idx → EReal}
    {A : (⟨2, ![M, p]⟩ : Shape).Idx → EReal} {B : (⟨2, ![M, q]⟩ : Shape).Idx → EReal}
    (h : Shape.Concatenates [(⟨2, ![mb, p]⟩ : Shape), ⟨2, ![mb, q]⟩] ⟨2, ![mb, t]⟩ 1)
    (H : Shape.Concatenates [(⟨2, ![M, p]⟩ : Shape), ⟨2, ![M, q]⟩] ⟨2, ![M, t]⟩ 1)
    (ha : Rows σ a A) (hb : Rows σ b B) :
    Rows σ (concatenate ⟨2, ![mb, t]⟩ 1 [⟨⟨2, ![mb, p]⟩, a⟩, ⟨⟨2, ![mb, q]⟩, b⟩] h)
      (concatenate ⟨2, ![M, t]⟩ 1 [⟨⟨2, ![M, p]⟩, A⟩, ⟨⟨2, ![M, q]⟩, B⟩] H) := fun r c => by
  have ht : p + q = t := by
    have := h.2.2; simpa using this
  by_cases hc : c.val < p
  · rw [catCols_left h a b r c ⟨c.val, hc⟩ rfl, catCols_left H A B (σ r) c ⟨c.val, hc⟩ rfl]
    exact ha r _
  · have hq : c.val - p < q := by have := c.isLt; omega
    rw [catCols_right h a b r c ⟨c.val - p, hq⟩ (by show c.val - p + p = c.val; omega),
      catCols_right H A B (σ r) c ⟨c.val - p, hq⟩ (by show c.val - p + p = c.val; omega)]
    exact hb r _

end RowsLemmas

/-! ## The whole-array layers, named

The same expressions as the right-hand sides above, at any float instance: a network over whole arrays is written with
these, and each unfolds to the host operations a whole-array program prints. -/

section Whole

variable {F : FTy → Type} [FloatOps F] {M : ℕ}

/-- Each row divided by the larger of its Euclidean length and the floor e. -/
abbrev Whole.normalize {k : ℕ} (e : BitVec 32) (hrt : (⟨2, ![M, k]⟩ : Shape).ReducesTo [1] ⟨1, ![M]⟩)
    (hu : 0 < (⟨0, ![]⟩ : Shape).numel) (h0 : (⟨1, ![M]⟩ : Shape).BroadcastsInDim ⟨2, ![M, 1]⟩ ![0])
    (hs : (⟨0, ![]⟩ : Shape).BroadcastsInDim ⟨2, ![M, 1]⟩ ![])
    (h01 : (⟨2, ![M, 1]⟩ : Shape).BroadcastsInDim ⟨2, ![M, k]⟩ ![0, 1])
    (X : FVec F ⟨2, ![M, k]⟩ .f32) : FVec F ⟨2, ![M, k]⟩ .f32 :=
  Host.divf X (broadcastInDim ⟨2, ![M, k]⟩ ![0, 1] h01
    (maximumf (Host.sqrt (broadcastInDim ⟨2, ![M, 1]⟩ ![0] h0
        (Host.reduceAdd (mulf X X) (constant (F := F) ⟨0, ![]⟩ .f32 0x00000000#32) hrt hu)))
      (broadcastInDim ⟨2, ![M, 1]⟩ ![] hs (constant (F := F) ⟨0, ![]⟩ .f32 e))))

/-- x · wᵀ + b, the bias vector added to every row. -/
abbrev Whole.affine {k n : ℕ} (htr : (⟨2, ![n, k]⟩ : Shape).Transposes [1, 0] ⟨2, ![k, n]⟩)
    (h1 : (⟨1, ![n]⟩ : Shape).BroadcastsInDim ⟨2, ![1, n]⟩ ![1])
    (h01 : (⟨2, ![1, n]⟩ : Shape).BroadcastsInDim ⟨2, ![M, n]⟩ ![0, 1])
    (X : FVec F ⟨2, ![M, k]⟩ .f32) (w : FVec F ⟨2, ![n, k]⟩ .f32) (b : FVec F ⟨1, ![n]⟩ .f32) : FVec F ⟨2, ![M, n]⟩ .f32 :=
  addf (Host.dotGeneral (DotDims.plain M k n) none X (transpose ⟨2, ![k, n]⟩ [1, 0] w htr))
    (broadcastInDim ⟨2, ![M, n]⟩ ![0, 1] h01 (broadcastInDim ⟨2, ![1, n]⟩ ![1] h1 b))

/-- The larger of each entry and zero. -/
abbrev Whole.relu {k : ℕ} (h : (⟨0, ![]⟩ : Shape).BroadcastsInDim ⟨2, ![M, k]⟩ ![]) (Y : FVec F ⟨2, ![M, k]⟩ .f32) :
    FVec F ⟨2, ![M, k]⟩ .f32 :=
  maximumf Y (broadcastInDim ⟨2, ![M, k]⟩ ![] h (constant (F := F) ⟨0, ![]⟩ .f32 0x00000000#32))

/-- 1 / (1 + exp (-y)), entry by entry. -/
abbrev Whole.sigmoid {k : ℕ} (h : (⟨0, ![]⟩ : Shape).BroadcastsInDim ⟨2, ![M, k]⟩ ![]) (Y : FVec F ⟨2, ![M, k]⟩ .f32) :
    FVec F ⟨2, ![M, k]⟩ .f32 :=
  Host.divf (broadcastInDim ⟨2, ![M, k]⟩ ![] h (constant (F := F) ⟨0, ![]⟩ .f32 0x3F800000#32))
    (addf (broadcastInDim ⟨2, ![M, k]⟩ ![] h (constant (F := F) ⟨0, ![]⟩ .f32 0x3F800000#32)) (Host.exp (Host.negf Y)))

/-- One step of a gated recurrent cell from its two affine images gi, gh (each three bands of h columns: reset,
    update, candidate) and the previous state H:  r = σ(giᵣ + ghᵣ), z = σ(gi_z + gh_z), n = tanh(giₙ + r·ghₙ),
    result (1 − z)·n + z·H. -/
abbrev Whole.gru {h h3 : ℕ} (o1 o2 : ℕ)
    (s0 : (⟨2, ![M, h3]⟩ : Shape).Slices ![0, 0] ⟨2, ![M, h]⟩) (s1 : (⟨2, ![M, h3]⟩ : Shape).Slices ![0, o1] ⟨2, ![M, h]⟩)
    (s2 : (⟨2, ![M, h3]⟩ : Shape).Slices ![0, o2] ⟨2, ![M, h]⟩)
    (hb : (⟨0, ![]⟩ : Shape).BroadcastsInDim ⟨2, ![M, h]⟩ ![])
    (gi gh : FVec F ⟨2, ![M, h3]⟩ .f32) (H : FVec F ⟨2, ![M, h]⟩ .f32) : FVec F ⟨2, ![M, h]⟩ .f32 :=
  addf
    (mulf (subf (broadcastInDim ⟨2, ![M, h]⟩ ![] hb (constant (F := F) ⟨0, ![]⟩ .f32 0x3F800000#32))
        (Whole.sigmoid hb (addf (extractStridedSlice ⟨2, ![M, h]⟩ ![0, o1] gi s1) (extractStridedSlice ⟨2, ![M, h]⟩ ![0, o1] gh s1))))
      (Host.tanh (addf (extractStridedSlice ⟨2, ![M, h]⟩ ![0, o2] gi s2)
        (mulf (Whole.sigmoid hb (addf (extractStridedSlice ⟨2, ![M, h]⟩ ![0, 0] gi s0) (extractStridedSlice ⟨2, ![M, h]⟩ ![0, 0] gh s0)))
          (extractStridedSlice ⟨2, ![M, h]⟩ ![0, o2] gh s2)))))
    (mulf (Whole.sigmoid hb (addf (extractStridedSlice ⟨2, ![M, h]⟩ ![0, o1] gi s1) (extractStridedSlice ⟨2, ![M, h]⟩ ![0, o1] gh s1))) H)

end Whole

section MoreRows

variable {mb M : ℕ} {σ : Fin mb → Fin M}

/-- One row repeated down the block against a vector broadcast along the columns of the whole matrix: both read
    entry j of the same list of n numbers. -/
theorem Rows.constRows {n : ℕ} (hsc : (⟨2, ![1, n]⟩ : Shape).ShapeCasts ⟨2, ![1, n]⟩)
    (hbc : (⟨2, ![1, n]⟩ : Shape).Broadcasts ⟨2, ![mb, n]⟩) (h : (⟨1, ![n]⟩ : Shape).BroadcastsInDim ⟨2, ![M, n]⟩ ![1])
    {v : (⟨2, ![1, n]⟩ : Shape).Idx → EReal} {E : (⟨1, ![n]⟩ : Shape).Idx → EReal} (hv : ∀ j : Fin n, v (ix2 (0 : Fin 1) j) = E (ix1 j)) :
    Rows σ (broadcastTo ⟨2, ![mb, n]⟩ (shapeCast ⟨2, ![1, n]⟩ (shapeCast ⟨2, ![1, n]⟩ v hsc) hsc) hbc)
      (broadcastInDim ⟨2, ![M, n]⟩ ![1] h E) := fun p c => by
  rw [oneRow_apply, rowBroadcast_apply, hv]

/-- Three matrices side by side. -/
theorem Rows.catCols3 {p q s t : ℕ} {a : (⟨2, ![mb, p]⟩ : Shape).Idx → EReal} {b : (⟨2, ![mb, q]⟩ : Shape).Idx → EReal}
    {d : (⟨2, ![mb, s]⟩ : Shape).Idx → EReal}
    {A : (⟨2, ![M, p]⟩ : Shape).Idx → EReal} {B : (⟨2, ![M, q]⟩ : Shape).Idx → EReal} {D : (⟨2, ![M, s]⟩ : Shape).Idx → EReal}
    (h : Shape.Concatenates [(⟨2, ![mb, p]⟩ : Shape), ⟨2, ![mb, q]⟩, ⟨2, ![mb, s]⟩] ⟨2, ![mb, t]⟩ 1)
    (H : Shape.Concatenates [(⟨2, ![M, p]⟩ : Shape), ⟨2, ![M, q]⟩, ⟨2, ![M, s]⟩] ⟨2, ![M, t]⟩ 1)
    (ha : Rows σ a A) (hb : Rows σ b B) (hd : Rows σ d D) :
    Rows σ (concatenate ⟨2, ![mb, t]⟩ 1 [⟨⟨2, ![mb, p]⟩, a⟩, ⟨⟨2, ![mb, q]⟩, b⟩, ⟨⟨2, ![mb, s]⟩, d⟩] h)
      (concatenate ⟨2, ![M, t]⟩ 1 [⟨⟨2, ![M, p]⟩, A⟩, ⟨⟨2, ![M, q]⟩, B⟩, ⟨⟨2, ![M, s]⟩, D⟩] H) := fun r c => by
  have ht : p + q + s = t := by
    have := h.2.2; simpa [Nat.add_assoc] using this
  have side : ∀ (mm : ℕ) (rr : Fin mm) (x : (⟨2, ![mm, p]⟩ : Shape).Idx → EReal) (y : (⟨2, ![mm, q]⟩ : Shape).Idx → EReal)
      (z : (⟨2, ![mm, s]⟩ : Shape).Idx → EReal)
      (hh : Shape.Concatenates [(⟨2, ![mm, p]⟩ : Shape), ⟨2, ![mm, q]⟩, ⟨2, ![mm, s]⟩] ⟨2, ![mm, t]⟩ 1),
      concatenate ⟨2, ![mm, t]⟩ 1 [⟨⟨2, ![mm, p]⟩, x⟩, ⟨⟨2, ![mm, q]⟩, y⟩, ⟨⟨2, ![mm, s]⟩, z⟩] hh (ix2 rr c)
        = if h1 : c.val < p then x (ix2 rr ⟨c.val, h1⟩)
          else if h2 : c.val < p + q then y (ix2 rr ⟨c.val - p, by omega⟩)
          else z (ix2 rr ⟨c.val - (p + q), by have := c.isLt; omega⟩) := by
    intro mm rr x y z hh
    by_cases h1 : c.val < p
    · rw [dif_pos h1]
      exact concatenate_apply_piece 1 [⟨⟨2, ![mm, p]⟩, x⟩, ⟨⟨2, ![mm, q]⟩, y⟩, ⟨⟨2, ![mm, s]⟩, z⟩] hh (ix2 rr c) 0 (by simp) _ x rfl rfl 0 (by simp) (ix2 rr ⟨c.val, h1⟩)
        (fun ax hax => by match ax with | ⟨0, _⟩ => rfl | ⟨1, _⟩ => exact absurd rfl hax) (by show 0 + c.val = c.val; omega)
    · rw [dif_neg h1]
      by_cases h2 : c.val < p + q
      · rw [dif_pos h2]
        exact concatenate_apply_piece 1 [⟨⟨2, ![mm, p]⟩, x⟩, ⟨⟨2, ![mm, q]⟩, y⟩, ⟨⟨2, ![mm, s]⟩, z⟩] hh (ix2 rr c) 1 (by simp) _ y rfl rfl p (by simp) (ix2 rr ⟨c.val - p, by omega⟩)
          (fun ax hax => by match ax with | ⟨0, _⟩ => rfl | ⟨1, _⟩ => exact absurd rfl hax) (by show p + (c.val - p) = c.val; omega)
      · rw [dif_neg h2]
        exact concatenate_apply_piece 1 [⟨⟨2, ![mm, p]⟩, x⟩, ⟨⟨2, ![mm, q]⟩, y⟩, ⟨⟨2, ![mm, s]⟩, z⟩] hh (ix2 rr c) 2 (by simp) _ z rfl rfl (p + q) (by simp)
          (ix2 rr ⟨c.val - (p + q), by have := c.isLt; omega⟩)
          (fun ax hax => by match ax with | ⟨0, _⟩ => rfl | ⟨1, _⟩ => exact absurd rfl hax) (by show p + q + (c.val - (p + q)) = c.val; omega)
  rw [side mb r a b d h, side M (σ r) A B D H]
  split
  · exact ha r _
  · split
    · exact hb r _
    · exact hd r _

/-- The recurrent cell: the tiled spelling (the logistic function as one operation, the vector unit's tanh, scalar
    splats) of a block against the whole-array cell, when the block's gi, gh and previous state are the σ-rows of the
    whole arrays'. -/
theorem Rows.gru {h h3 : ℕ} (o1 o2 : ℕ)
    (t0 : (⟨2, ![mb, h3]⟩ : Shape).Slices ![0, 0] ⟨2, ![mb, h]⟩) (t1 : (⟨2, ![mb, h3]⟩ : Shape).Slices ![0, o1] ⟨2, ![mb, h]⟩)
    (t2 : (⟨2, ![mb, h3]⟩ : Shape).Slices ![0, o2] ⟨2, ![mb, h]⟩)
    (s0 : (⟨2, ![M, h3]⟩ : Shape).Slices ![0, 0] ⟨2, ![M, h]⟩) (s1 : (⟨2, ![M, h3]⟩ : Shape).Slices ![0, o1] ⟨2, ![M, h]⟩)
    (s2 : (⟨2, ![M, h3]⟩ : Shape).Slices ![0, o2] ⟨2, ![M, h]⟩)
    (hb : (⟨0, ![]⟩ : Shape).BroadcastsInDim ⟨2, ![M, h]⟩ ![])
    {gi gh : FVec Ideal ⟨2, ![mb, h3]⟩ .f32} {hp : FVec Ideal ⟨2, ![mb, h]⟩ .f32}
    {Gi Gh : FVec Ideal ⟨2, ![M, h3]⟩ .f32} {H : FVec Ideal ⟨2, ![M, h]⟩ .f32}
    (hgi : Rows σ gi Gi) (hgh : Rows σ gh Gh) (hH : Rows σ hp H) :
    Rows σ
      (Idealize.ShloMosaic.addf
        (Idealize.ShloMosaic.mulf (Idealize.ShloMosaic.subf (broadcast ⟨2, ![mb, h]⟩ (Scalar.ofBits (F := Ideal) .f32 0x3F800000#32))
            (Idealize.ShloMosaic.logistic (Idealize.ShloMosaic.addf (extractStridedSlice ⟨2, ![mb, h]⟩ ![0, o1] gi t1) (extractStridedSlice ⟨2, ![mb, h]⟩ ![0, o1] gh t1))))
          (Idealize.ShloMosaic.tanh (Idealize.ShloMosaic.addf (extractStridedSlice ⟨2, ![mb, h]⟩ ![0, o2] gi t2)
            (Idealize.ShloMosaic.mulf (Idealize.ShloMosaic.logistic (Idealize.ShloMosaic.addf (extractStridedSlice ⟨2, ![mb, h]⟩ ![0, 0] gi t0) (extractStridedSlice ⟨2, ![mb, h]⟩ ![0, 0] gh t0)))
              (extractStridedSlice ⟨2, ![mb, h]⟩ ![0, o2] gh t2)))))
        (Idealize.ShloMosaic.mulf (Idealize.ShloMosaic.logistic (Idealize.ShloMosaic.addf (extractStridedSlice ⟨2, ![mb, h]⟩ ![0, o1] gi t1) (extractStridedSlice ⟨2, ![mb, h]⟩ ![0, o1] gh t1))) hp))
      (Whole.gru (F := Ideal) o1 o2 s0 s1 s2 hb Gi Gh H) :=
  Rows.addf
    (Rows.mulf (Rows.oneMinus hb (Rows.logistic hb hb (Rows.addf (Rows.sliceCols o1 t1 s1 hgi) (Rows.sliceCols o1 t1 s1 hgh))))
      (Rows.tanh (Rows.addf (Rows.sliceCols o2 t2 s2 hgi)
        (Rows.mulf (Rows.logistic hb hb (Rows.addf (Rows.sliceCols 0 t0 s0 hgi) (Rows.sliceCols 0 t0 s0 hgh)))
          (Rows.sliceCols o2 t2 s2 hgh)))))
    (Rows.mulf (Rows.logistic hb hb (Rows.addf (Rows.sliceCols o1 t1 s1 hgi) (Rows.sliceCols o1 t1 s1 hgh))) hH)

end MoreRows

end RowLayers

end
-- ==== Proof.RowOps.lean ====
/-
  Further layers of a row-wise network, read row by row at the exact instance (floats read as extended reals).

  Row p of a block is row σ p of the whole matrix. The larger and the smaller of two matrices, the clamp of every entry
  to the interval from 0 to 1, and the affine layer x · w + b whose weight matrix w arrives with its k rows of n entries
  already laid out for the product and whose bias b arrives as one row: each reads, in row p of its result, row p of
  its matrix operands only, so each carries "the block's rows are the σ-rows of the whole" from operands to result.
-/
import proofs.«133397_j6846177869883_1_alg».proof.Proof.LibRowLayers
import Idealize.ShloMosaic.Lib.KernelVsHost

noncomputable section

open scoped BigOperators

namespace RowLayers

open Idealize.ShloMosaic Idealize.ShloMosaic.ValueIdx

/-- An m×k matrix times a k×n matrix on the matrix unit, accumulated into the zero splat, at (a, b): the sum over the
    contracted coordinate c of the products A(a, c) · B(c, b). -/
theorem matmulPlain_apply {m k n : ℕ} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  rw [matmul_zero_eq_dotGeneral, StackMember.dotGeneral_plain_apply]

section

variable {mb M : ℕ} {σ : Fin mb → Fin M}

/-- The larger of two matrices, entry by entry. -/
theorem Rows.maximumf {k : ℕ} {φ : FTy} {a b : FVec Ideal ⟨2, ![mb, k]⟩ φ} {A B : FVec Ideal ⟨2, ![M, k]⟩ φ}
    (ha : Rows σ a A) (hb : Rows σ b B) :
    Rows σ (Idealize.ShloMosaic.maximumf a b) (Idealize.ShloMosaic.maximumf A B) := fun p c => by
  show max (a _) (b _) = max (A _) (B _)
  rw [ha p c, hb p c]

/-- The smaller of two matrices, entry by entry. -/
theorem Rows.minimumf {k : ℕ} {φ : FTy} {a b : FVec Ideal ⟨2, ![mb, k]⟩ φ} {A B : FVec Ideal ⟨2, ![M, k]⟩ φ}
    (ha : Rows σ a A) (hb : Rows σ b B) :
    Rows σ (Idealize.ShloMosaic.minimumf a b) (Idealize.ShloMosaic.minimumf A B) := fun p c => by
  show min (a _) (b _) = min (A _) (B _)
  rw [ha p c, hb p c]

/-- The clamp min(1, max(0, y)): the scalars 0 and 1 splat over the block against the same scalars broadcast over the
    whole matrix. -/
theorem Rows.clamp01 {k : ℕ} {a : FVec Ideal ⟨2, ![mb, k]⟩ .f32} {A : FVec Ideal ⟨2, ![M, k]⟩ .f32}
    (h : (⟨0, ![]⟩ : Shape).BroadcastsInDim ⟨2, ![M, k]⟩ ![]) (ha : Rows σ a A) :
    Rows σ
      (Idealize.ShloMosaic.minimumf (broadcast ⟨2, ![mb, k]⟩ (Scalar.ofBits (F := Ideal) .f32 0x3F800000#32))
        (Idealize.ShloMosaic.maximumf (broadcast ⟨2, ![mb, k]⟩ (Scalar.ofBits (F := Ideal) .f32 0x00000000#32)) a))
      (Idealize.ShloMosaic.minimumf (broadcastInDim ⟨2, ![M, k]⟩ ![] h (constant (F := Ideal) ⟨0, ![]⟩ .f32 0x3F800000#32))
        (Idealize.ShloMosaic.maximumf (broadcastInDim ⟨2, ![M, k]⟩ ![] h (constant (F := Ideal) ⟨0, ![]⟩ .f32 0x00000000#32)) A)) :=
  Rows.minimumf (Rows.splat _ h) (Rows.maximumf (Rows.splat _ h) ha)

/-- The affine layer x · w + b with w a k×n matrix and b one row of n entries. The tiled spelling narrows both
    operands (the identity here), multiplies on the matrix unit into a zero accumulator and adds the row broadcast
    down the block; the whole-array spelling is the host's plain product plus the row broadcast down all rows. Entry
    (p, c) of either is the sum over j of x(p, j) · w(j, c), plus b(0, c). -/
theorem Rows.affinePlain {k n : ℕ} {φ₁ : FTy} (h16 : FTy.bf16.bits < FTy.f32.bits)
    (hscW : (⟨2, ![k, n]⟩ : Shape).ShapeCasts ⟨2, ![k, n]⟩)
    (hscB : (⟨2, ![1, n]⟩ : Shape).ShapeCasts ⟨2, ![1, n]⟩)
    (hbc : (⟨2, ![1, n]⟩ : Shape).Broadcasts ⟨2, ![mb, n]⟩)
    (h01 : (⟨2, ![1, n]⟩ : Shape).BroadcastsInDim ⟨2, ![M, n]⟩ ![0, 1])
    {x : FVec Ideal ⟨2, ![mb, k]⟩ φ₁} {X : FVec Ideal ⟨2, ![M, k]⟩ .f32} (hx : Rows σ x X)
    (w : FVec Ideal ⟨2, ![k, n]⟩ .f32) (b : FVec Ideal ⟨2, ![1, n]⟩ .f32) :
    Rows σ
      (Idealize.ShloMosaic.addf
        (matmul (DotDims.plain mb k n) none x (Idealize.ShloMosaic.truncf .bf16 (shapeCast ⟨2, ![k, n]⟩ w hscW) h16)
          (constant ⟨2, ![mb, n]⟩ .f32 0x00000000#32))
        (broadcastTo ⟨2, ![mb, n]⟩ (shapeCast ⟨2, ![1, n]⟩ b hscB) hbc))
      (Idealize.ShloMosaic.addf (Host.dotGeneral (DotDims.plain M k n) none X w)
        (broadcastInDim ⟨2, ![M, n]⟩ ![0, 1] h01 b)) := fun p c => by
  rw [addf_apply, addf_apply, matmulPlain_apply, StackMember.dotGeneral_plain_apply, broadcastTo_1b_ab_apply,
    rowDown_apply, shapeCast_self, shapeCast_self]
  refine congrArg (· + b (ix2 (0 : Fin 1) c)) (Finset.sum_congr rfl fun j _ => ?_)
  rw [hx p j]
  rfl

end

end RowLayers

end
-- ==== Proof.Network.lean ====
/-
  The network as one function of whole arrays, and the kernel's body on a block of rows as its rows.

  The network: two position encodings X0, X1 (one row per position) each pass through the same affine layer
  (weights w0, bias b0) and are clamped to [0, 1]; the two results are laid side by side; two more clamped affine
  layers follow (w1, b1 and w2, b2); a last affine layer (w3, b3) gives one number per row, and the logistic function
  1 / (1 + exp (-y)) of it is the result. Every layer reads, in row r of its result, row r of its matrix operand only.
  So on a block of rows — row p of the block being row σ p of the whole arrays — the same layers in the tiled spelling
  give the σ-rows of the whole-array network.
-/
import proofs.«133397_j6846177869883_1_alg».proof.Proof.Gen.ReferenceIdeal
import proofs.«133397_j6846177869883_1_alg».proof.Proof.Gen.KernelIdeal.Skeleton
import proofs.«133397_j6846177869883_1_alg».proof.Proof.RowOps

noncomputable section

namespace Cert.Bridge

open Idealize.ShloMosaic Idealize.ShloMosaic.ValueIdx RowLayers

section Whole

open Cert.ReferenceIdeal Cert.ReferenceIdeal.Gen

/-- The whole-array network over weight matrices already in product layout (k rows of n entries) and biases given as
    one row: clamp (x · w + b) three times, the first twice and side by side, then logistic (x · w3 + b3) with the
    logistic function spelt 1 / (1 + exp (-y)). -/
def netCore (X0 X1 : FVec Ideal S65536x1260 .f32) (w0 : FVec Ideal S1260x128 .f32) (b0 : FVec Ideal S1x128 .f32)
    (w1 : FVec Ideal S256x32 .f32) (b1 : FVec Ideal S1x32 .f32) (w2 : FVec Ideal S32x32 .f32) (b2 : FVec Ideal S1x32 .f32)
    (w3 : FVec Ideal S32x1 .f32) (b3 : FVec Ideal S1x1 .f32) : FVec Ideal S65536x1 .f32 :=
  Host.divf (broadcastInDim S65536x1 ![] bcast_S_S65536x1 (constant S_ .f32 0x3F800000#32)) (addf (broadcastInDim S65536x1 ![] bcast_S_S65536x1 (constant S_ .f32 0x3F800000#32)) (Host.exp (Host.negf (addf (Host.dotGeneral dot_S65536x32_S32x1_S65536x1_1_0_0_1_n_n none (minimumf (broadcastInDim S65536x32 ![] bcast_S_S65536x32 (id (constant S_ .f32 0x3F800000#32))) (maximumf (broadcastInDim S65536x32 ![] bcast_S_S65536x32 (id (constant S_ .f32 0x00000000#32))) (addf (Host.dotGeneral dot_S65536x32_S32x32_S65536x32_1_0_0_1_n_n none (minimumf (broadcastInDim S65536x32 ![] bcast_S_S65536x32 (id (constant S_ .f32 0x3F800000#32))) (maximumf (broadcastInDim S65536x32 ![] bcast_S_S65536x32 (id (constant S_ .f32 0x00000000#32))) (addf (Host.dotGeneral dot_S65536x256_S256x32_S65536x32_1_0_0_1_n_n none (concatenate S65536x256 1 [⟨S65536x128, (minimumf (broadcastInDim S65536x128 ![] bcast_S_S65536x128 (id (constant S_ .f32 0x3F800000#32))) (maximumf (broadcastInDim S65536x128 ![] bcast_S_S65536x128 (id (constant S_ .f32 0x00000000#32))) (addf (Host.dotGeneral dot_S65536x1260_S1260x128_S65536x128_1_0_0_1_n_n none X0 w0) (broadcastInDim S65536x128 ![0, 1] bcast_S1x128_S65536x128_0_1 b0))))⟩, ⟨S65536x128, (minimumf (broadcastInDim S65536x128 ![] bcast_S_S65536x128 (id (constant S_ .f32 0x3F800000#32))) (maximumf (broadcastInDim S65536x128 ![] bcast_S_S65536x128 (id (constant S_ .f32 0x00000000#32))) (addf (Host.dotGeneral dot_S65536x1260_S1260x128_S65536x128_1_0_0_1_n_n none X1 w0) (broadcastInDim S65536x128 ![0, 1] bcast_S1x128_S65536x128_0_1 b0))))⟩] concatenates_S65536x128_S65536x128_S65536x256_d1) w1) (broadcastInDim S65536x32 ![0, 1] bcast_S1x32_S65536x32_0_1 b1)))) w2) (broadcastInDim S65536x32 ![0, 1] bcast_S1x32_S65536x32_0_1 b2)))) w3) (broadcastInDim S65536x1 ![0, 1] bcast_S1x1_S65536x1_0_1 b3)))))

/-- The network over the arguments as given: each weight matrix (n rows of k entries) transposed into product layout,
    each bias vector made one row. -/
def refNet (a0 a1 : FVec Ideal S65536x1260 .f32) (a2 : FVec Ideal S128x1260 .f32) (a3 : FVec Ideal S128 .f32)
    (a4 : FVec Ideal S32x256 .f32) (a5 : FVec Ideal S32 .f32) (a6 : FVec Ideal S32x32 .f32) (a7 : FVec Ideal S32 .f32)
    (a8 : FVec Ideal S1x32 .f32) (a9 : FVec Ideal S1 .f32) : FVec Ideal S65536x1 .f32 :=
  netCore a0 a1 (transpose S1260x128 [1, 0] a2 transposes_S128x1260_S1260x128_1_0) (broadcastInDim S1x128 ![1] bcast_S128_S1x128_1 a3)
    (transpose S256x32 [1, 0] a4 transposes_S32x256_S256x32_1_0) (broadcastInDim S1x32 ![1] bcast_S32_S1x32_1 a5)
    (transpose S32x32 [1, 0] a6 transposes_S32x32_S32x32_1_0) (broadcastInDim S1x32 ![1] bcast_S32_S1x32_1 a7)
    (transpose S32x1 [1, 0] a8 transposes_S1x32_S32x1_1_0) (broadcastInDim S1x1 ![1] bcast_S1_S1x1_1 a9)

end Whole

section Block

open Cert.KernelIdeal Cert.KernelIdeal.Gen

/-- The body's two payloads on a block whose two inputs are the σ-rows of X0 and X1, with the same weights and biases,
    compute the σ-rows of the whole-array network: layer by layer, the matrix unit's product into a zero accumulator
    against the host's product, a row broadcast down the block against the row broadcast down all rows, the clamp
    with splat scalars against the clamp with broadcast scalars, the two halves side by side, and the logistic function
    as one operation against its expansion. -/
theorem payload_rows {σ : Fin 1024 → Fin 65536}
    {x0 x1 : Vec Ideal S1024x1260 .f32} {X0 X1 : FVec Ideal Cert.ReferenceIdeal.S65536x1260 .f32}
    (h0 : Rows σ x0 X0) (h1 : Rows σ x1 X1)
    (w0 : Vec Ideal S1260x128 .f32) (b0 : Vec Ideal S1x128 .f32) (w1 : Vec Ideal S256x32 .f32) (b1 : Vec Ideal S1x32 .f32)
    (w2 : Vec Ideal S32x32 .f32) (b2 : Vec Ideal S1x32 .f32) (w3 : Vec Ideal S32x1 .f32) (b3 : Vec Ideal S1x1 .f32) :
    Rows σ (k0_pay1 (k0_pay2 w0 b0 x0 x1 w1 b1) w2 b2 w3 b3) (netCore X0 X1 w0 b0 w1 b1 w2 b2 w3 b3) := by
  unfold netCore k0_pay1 k0_pay2
  dsimp only
  rw [show dot_S1024x1260_S1260x128_S1024x128_1_0_0_1_n_n = DotDims.plain 1024 1260 128 from rfl,
    show dot_S1024x256_S256x32_S1024x32_1_0_0_1_n_n = DotDims.plain 1024 256 32 from rfl,
    show dot_S1024x32_S32x32_S1024x32_1_0_0_1_n_n = DotDims.plain 1024 32 32 from rfl,
    show dot_S1024x32_S32x1_S1024x1_1_0_0_1_n_n = DotDims.plain 1024 32 1 from rfl,
    show Cert.ReferenceIdeal.dot_S65536x1260_S1260x128_S65536x128_1_0_0_1_n_n = DotDims.plain 65536 1260 128 from rfl,
    show Cert.ReferenceIdeal.dot_S65536x256_S256x32_S65536x32_1_0_0_1_n_n = DotDims.plain 65536 256 32 from rfl,
    show Cert.ReferenceIdeal.dot_S65536x32_S32x32_S65536x32_1_0_0_1_n_n = DotDims.plain 65536 32 32 from rfl,
    show Cert.ReferenceIdeal.dot_S65536x32_S32x1_S65536x1_1_0_0_1_n_n = DotDims.plain 65536 32 1 from rfl]
  exact Rows.logistic _ _
    (Rows.affinePlain _ _ _ _ _
      (Rows.truncf _ (Rows.clamp01 _
        (Rows.affinePlain _ _ _ _ _
          (Rows.truncf _ (Rows.clamp01 _
            (Rows.affinePlain _ _ _ _ _
              (Rows.truncf _ (Rows.catCols _ _
                (Rows.clamp01 _ (Rows.affinePlain _ _ _ _ _ (Rows.truncf _ h0) _ _))
                (Rows.clamp01 _ (Rows.affinePlain _ _ _ _ _ (Rows.truncf _ h1) _ _))))
              _ _)))
          _ _)))
      _ _)

end Block

end Cert.Bridge

end
-- ==== Proof.Blocks.lean ====
/-
  The kernel's result array, block by block.

  The grid has 64 points. At point t the two feature windows hold rows 1024·t … 1024·t + 1023 of their arrays, the
  eight weight and bias windows hold their whole arrays at every point, and the result window's block is rows
  1024·t … 1024·t + 1023 of the result. So what point t writes back is the network's result on those rows, the 64
  blocks tile the 65536 rows, and the result array ends at the network of the arguments.
-/
import proofs.«133397_j6846177869883_1_alg».proof.Proof.Gen.KernelIdeal.Value
import proofs.«133397_j6846177869883_1_alg».proof.Proof.Network
import Idealize.ShloMosaic.Lib.StableHlo.Run

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx RowLayers
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- A vector of n entries reshaped to one row is the vector broadcast along the columns of one row: both read entry j
    at (0, j). -/
theorem reshape_row_eq_broadcast {n : ℕ} {α : Type} (x : (⟨1, ![n]⟩ : Shape).Idx → α)
    (h1 : (⟨1, ![n]⟩ : Shape).ShapeCasts ⟨2, ![1, n]⟩) (hd : (⟨1, ![n]⟩ : Shape).BroadcastsInDim ⟨2, ![1, n]⟩ ![1]) :
    shapeCast ⟨2, ![1, n]⟩ x h1 = broadcastInDim ⟨2, ![1, n]⟩ ![1] hd x := by
  funext i
  obtain ⟨p, q, rfl⟩ : ∃ (p : Fin 1) (q : Fin n), i = ix2 p q := ⟨i 0, i 1, eq_ix2 i⟩
  rw [shapeCast_a_1a_apply, rowBroadcast_apply]

/-- The printed index maps over the 64 points: the two feature windows and the result window sit at block (t, 0), the
    weight and bias windows at block (0, 0). -/
theorem block_indices : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_10.index t (0 : Fin 2) = t.val ∧ win0_10.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0) :=
  (by decide +kernel : ∀ t : Fin grid0.N, _)

/-- Row p of point t's blocks is row 1024·t + p of the arrays. -/
def rowOf (t : Fin cfg0.N) (p : Fin 1024) : Fin 65536 :=
  ⟨t.val * 1024 + p.val, by have ht : t.val < 64 := t.isLt; have hp := p.isLt; omega⟩

/-! ## The input windows' blocks -/

/-- The first feature window's block at point t is rows 1024·t … of the first argument. -/
theorem features0_rows (c : Dev nD) (t : Fin cfg0.N) :
    Rows (rowOf t) (iblk m c 0 t : Vec Ideal S1024x1260 .f32) (m ((c : Thread nD τ).loc main_arg0)) := fun p q => by
  obtain ⟨⟨e0, e1⟩, -⟩ := block_indices t
  show V m c main_arg0 (((cfg0.win 0).blk t).view.emb (ix2 p q)) = _
  rw [V_main_arg0]
  refine congrArg (m ((c : Thread nD τ).loc main_arg0)) ?_
  funext a; apply Fin.ext
  match a with
  | ⟨0, _⟩ => show win0_0.index t (0 : Fin 2) * 1024 + 1 * p.val = t.val * 1024 + p.val; omega
  | ⟨1, _⟩ => show win0_0.index t (1 : Fin 2) * 1260 + 1 * q.val = q.val; omega

/-- The second feature window's block at point t is rows 1024·t … of the second argument. -/
theorem features1_rows (c : Dev nD) (t : Fin cfg0.N) :
    Rows (rowOf t) (iblk m c 1 t : Vec Ideal S1024x1260 .f32) (m ((c : Thread nD τ).loc main_arg1)) := fun p q => by
  obtain ⟨-, ⟨e0, e1⟩, -⟩ := block_indices t
  show V m c main_arg1 (((cfg0.win 1).blk t).view.emb (ix2 p q)) = _
  rw [V_main_arg1]
  refine congrArg (m ((c : Thread nD τ).loc main_arg1)) ?_
  funext a; apply Fin.ext
  match a with
  | ⟨0, _⟩ => show win0_1.index t (0 : Fin 2) * 1024 + 1 * p.val = t.val * 1024 + p.val; omega
  | ⟨1, _⟩ => show win0_1.index t (1 : Fin 2) * 1260 + 1 * q.val = q.val; omega

/-- Each weight or bias window's block is its whole array: the block index is (0, 0) at every point. -/
theorem whole2 (c : Dev nD) (t : Fin cfg0.N) : (iblk m c 2 t : Vec Ideal S1260x128 .f32) = V m c main_v0 := by
  obtain ⟨-, -, -, ⟨e0, e1⟩, -⟩ := block_indices t
  funext y
  show V m c main_v0 (((cfg0.win 2).blk t).view.emb y) = V m c main_v0 y
  refine congrArg (V m c main_v0) ?_
  funext a; apply Fin.ext
  match a with
  | ⟨0, _⟩ => show win0_2.index t (0 : Fin 2) * 1260 + 1 * (y 0).val = (y 0).val; omega
  | ⟨1, _⟩ => show win0_2.index t (1 : Fin 2) * 128 + 1 * (y 1).val = (y 1).val; omega
theorem whole3 (c : Dev nD) (t : Fin cfg0.N) : (iblk m c 3 t : Vec Ideal S1x128 .f32) = V m c main_v4 := by
  obtain ⟨-, -, -, -, ⟨e0, e1⟩, -⟩ := block_indices t
  funext y
  show V m c main_v4 (((cfg0.win 3).blk t).view.emb y) = V m c main_v4 y
  refine congrArg (V m c main_v4) ?_
  funext a; apply Fin.ext
  match a with
  | ⟨0, _⟩ => show win0_3.index t (0 : Fin 2) * 1 + 1 * (y 0).val = (y 0).val; omega
  | ⟨1, _⟩ => show win0_3.index t (1 : Fin 2) * 128 + 1 * (y 1).val = (y 1).val; omega
theorem whole4 (c : Dev nD) (t : Fin cfg0.N) : (iblk m c 4 t : Vec Ideal S256x32 .f32) = V m c main_v1 := by
  obtain ⟨-, -, -, -, -, ⟨e0, e1⟩, -⟩ := block_indices t
  funext y
  show V m c main_v1 (((cfg0.win 4).blk t).view.emb y) = V m c main_v1 y
  refine congrArg (V m c main_v1) ?_
  funext a; apply Fin.ext
  match a with
  | ⟨0, _⟩ => show win0_4.index t (0 : Fin 2) * 256 + 1 * (y 0).val = (y 0).val; omega
  | ⟨1, _⟩ => show win0_4.index t (1 : Fin 2) * 32 + 1 * (y 1).val = (y 1).val; omega
theorem whole5 (c : Dev nD) (t : Fin cfg0.N) : (iblk m c 5 t : Vec Ideal S1x32 .f32) = V m c main_v5 := by
  obtain ⟨-, -, -, -, -, -, ⟨e0, e1⟩, -⟩ := block_indices t
  funext y
  show V m c main_v5 (((cfg0.win 5).blk t).view.emb y) = V m c main_v5 y
  refine congrArg (V m c main_v5) ?_
  funext a; apply Fin.ext
  match a with
  | ⟨0, _⟩ => show win0_5.index t (0 : Fin 2) * 1 + 1 * (y 0).val = (y 0).val; omega
  | ⟨1, _⟩ => show win0_5.index t (1 : Fin 2) * 32 + 1 * (y 1).val = (y 1).val; omega
theorem whole6 (c : Dev nD) (t : Fin cfg0.N) : (iblk m c 6 t : Vec Ideal S32x32 .f32) = V m c main_v2 := by
  obtain ⟨-, -, -, -, -, -, -, ⟨e0, e1⟩, -⟩ := block_indices t
  funext y
  show V m c main_v2 (((cfg0.win 6).blk t).view.emb y) = V m c main_v2 y
  refine congrArg (V m c main_v2) ?_
  funext a; apply Fin.ext
  match a with
  | ⟨0, _⟩ => show win0_6.index t (0 : Fin 2) * 32 + 1 * (y 0).val = (y 0).val; omega
  | ⟨1, _⟩ => show win0_6.index t (1 : Fin 2) * 32 + 1 * (y 1).val = (y 1).val; omega
theorem whole7 (c : Dev nD) (t : Fin cfg0.N) : (iblk m c 7 t : Vec Ideal S1x32 .f32) = V m c main_v6 := by
  obtain ⟨-, -, -, -, -, -, -, -, ⟨e0, e1⟩, -⟩ := block_indices t
  funext y
  show V m c main_v6 (((cfg0.win 7).blk t).view.emb y) = V m c main_v6 y
  refine congrArg (V m c main_v6) ?_
  funext a; apply Fin.ext
  match a with
  | ⟨0, _⟩ => show win0_7.index t (0 : Fin 2) * 1 + 1 * (y 0).val = (y 0).val; omega
  | ⟨1, _⟩ => show win0_7.index t (1 : Fin 2) * 32 + 1 * (y 1).val = (y 1).val; omega
theorem whole8 (c : Dev nD) (t : Fin cfg0.N) : (iblk m c 8 t : Vec Ideal S32x1 .f32) = V m c main_v3 := by
  obtain ⟨-, -, -, -, -, -, -, -, -, ⟨e0, e1⟩, -⟩ := block_indices t
  funext y
  show V m c main_v3 (((cfg0.win 8).blk t).view.emb y) = V m c main_v3 y
  refine congrArg (V m c main_v3) ?_
  funext a; apply Fin.ext
  match a with
  | ⟨0, _⟩ => show win0_8.index t (0 : Fin 2) * 32 + 1 * (y 0).val = (y 0).val; omega
  | ⟨1, _⟩ => show win0_8.index t (1 : Fin 2) * 1 + 1 * (y 1).val = (y 1).val; omega
theorem whole9 (c : Dev nD) (t : Fin cfg0.N) : (iblk m c 9 t : Vec Ideal S1x1 .f32) = V m c main_v7 := by
  obtain ⟨-, -, -, -, -, -, -, -, -, -, e0, e1⟩ := block_indices t
  funext y
  show V m c main_v7 (((cfg0.win 9).blk t).view.emb y) = V m c main_v7 y
  refine congrArg (V m c main_v7) ?_
  funext a; apply Fin.ext
  match a with
  | ⟨0, _⟩ => show win0_9.index t (0 : Fin 2) * 1 + 1 * (y 0).val = (y 0).val; omega
  | ⟨1, _⟩ => show win0_9.index t (1 : Fin 2) * 1 + 1 * (y 1).val = (y 1).val; omega

/-! ## What the operations before the region leave in the arrays the weight and bias windows stage -/

theorem transposed0 (c : Dev nD) : (V m c main_v0 : S1260x128.Idx → EReal)
    = transpose S1260x128 [1, 0] (m ((c : Thread nD τ).loc main_arg2)) transposes_S128x1260_S1260x128_1_0 := by
  dsimp only [Gen.V, Gen.hostOps0]; after_results
theorem transposed1 (c : Dev nD) : (V m c main_v1 : S256x32.Idx → EReal)
    = transpose S256x32 [1, 0] (m ((c : Thread nD τ).loc main_arg4)) transposes_S32x256_S256x32_1_0 := by
  dsimp only [Gen.V, Gen.hostOps0]; after_results
theorem transposed2 (c : Dev nD) : (V m c main_v2 : S32x32.Idx → EReal)
    = transpose S32x32 [1, 0] (m ((c : Thread nD τ).loc main_arg6)) transposes_S32x32_S32x32_1_0 := by
  dsimp only [Gen.V, Gen.hostOps0]; after_results
theorem transposed3 (c : Dev nD) : (V m c main_v3 : S32x1.Idx → EReal)
    = transpose S32x1 [1, 0] (m ((c : Thread nD τ).loc main_arg8)) transposes_S1x32_S32x1_1_0 := by
  dsimp only [Gen.V, Gen.hostOps0]; after_results
theorem row0 (c : Dev nD) : (V m c main_v4 : S1x128.Idx → EReal)
    = shapeCast S1x128 (m ((c : Thread nD τ).loc main_arg3)) shapeCasts_S128_S1x128 := by
  dsimp only [Gen.V, Gen.hostOps0]; after_results; rfl
theorem row1 (c : Dev nD) : (V m c main_v5 : S1x32.Idx → EReal)
    = shapeCast S1x32 (m ((c : Thread nD τ).loc main_arg5)) shapeCasts_S32_S1x32 := by
  dsimp only [Gen.V, Gen.hostOps0]; after_results; rfl
theorem row2 (c : Dev nD) : (V m c main_v6 : S1x32.Idx → EReal)
    = shapeCast S1x32 (m ((c : Thread nD τ).loc main_arg7)) shapeCasts_S32_S1x32 := by
  dsimp only [Gen.V, Gen.hostOps0]; after_results; rfl
theorem row3 (c : Dev nD) : (V m c main_v7 : S1x1.Idx → EReal)
    = shapeCast S1x1 (m ((c : Thread nD τ).loc main_arg9)) shapeCasts_S1_S1x1 := by
  dsimp only [Gen.V, Gen.hostOps0]; after_results; rfl

/-! ## What a point writes back -/

/-- The network of the ten arguments as core c was launched with them. -/
abbrev result (c : Dev nD) : Cert.ReferenceIdeal.S65536x1.Idx → EReal :=
  Cert.Bridge.refNet (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9))

/-- The body's result at point t is rows 1024·t … of the network's: the feature blocks are those rows of the feature
    arrays, and the weights and biases are the whole transposed matrices and one-row biases the network takes. -/
theorem point_rows (c : Dev nD) (t : Fin cfg0.N) :
    Rows (rowOf t)
      (k0_pay1 (k0_pay2 (iblk m c 2 t) (iblk m c 3 t) (iblk m c 0 t) (iblk m c 1 t) (iblk m c 4 t) (iblk m c 5 t))
        (iblk m c 6 t) (iblk m c 7 t) (iblk m c 8 t) (iblk m c 9 t))
      (result m c) := by
  have key := Cert.Bridge.payload_rows (features0_rows m c t) (features1_rows m c t)
    (iblk m c 2 t) (iblk m c 3 t) (iblk m c 4 t) (iblk m c 5 t) (iblk m c 6 t) (iblk m c 7 t) (iblk m c 8 t) (iblk m c 9 t)
  have hnet : Cert.Bridge.netCore (m ((c : Thread nD τ).loc main_arg0)) (m ((c : Thread nD τ).loc main_arg1))
      (iblk m c 2 t) (iblk m c 3 t) (iblk m c 4 t) (iblk m c 5 t) (iblk m c 6 t) (iblk m c 7 t) (iblk m c 8 t) (iblk m c 9 t)
      = result m c := by
    unfold result Cert.Bridge.refNet
    rw [whole2, whole3, whole4, whole5, whole6, whole7, whole8, whole9, transposed0, transposed1, transposed2, transposed3,
      row0, row1, row2, row3, reshape_row_eq_broadcast, reshape_row_eq_broadcast, reshape_row_eq_broadcast,
      reshape_row_eq_broadcast]
  rw [← hnet]
  exact key

/-- WHAT POINT t WRITES BACK is block t of the network's result. -/
theorem flushed_eq (c : Dev nD) (t : Fin cfg0.N) :
    (dats m 0 c).flushed 10 t = ((cfg0.win 10).blk t).view.read (Elt Ideal) (result m c) := by
  rw [Value.flushed10]
  unfold out0_10
  rw [View.canon_unit_zero origin]
  simp only [View.ld_unit_zero (S := S1024x1260) origin, View.ld_unit_zero (S := S1260x128) origin,
    View.ld_unit_zero (S := S1x128) origin, View.ld_unit_zero (S := S256x32) origin, View.ld_unit_zero (S := S1x32) origin,
    View.ld_unit_zero (S := S32x32) origin, View.ld_unit_zero (S := S32x1) origin, View.ld_unit_zero (S := S1x1) origin]
  obtain ⟨-, -, ⟨e0, e1⟩, -⟩ := block_indices t
  funext j
  obtain ⟨p, q, rfl⟩ : ∃ (p : Fin 1024) (q : Fin 1), j = ix2 p q := ⟨j 0, j 1, eq_ix2 j⟩
  have hemb : ((cfg0.win 10).blk t).view.emb (ix2 p q) = ix2 (rowOf t p) q := by
    funext a; apply Fin.ext
    match a with
    | ⟨0, _⟩ => show win0_10.index t (0 : Fin 2) * 1024 + 1 * p.val = t.val * 1024 + p.val; omega
    | ⟨1, _⟩ => show win0_10.index t (1 : Fin 2) * 1 + 1 * q.val = q.val; omega
  show _ = result m c (((cfg0.win 10).blk t).view.emb (ix2 p q))
  rw [hemb]
  exact point_rows m c t p q

/-! ## The whole array -/

/-- An index of the result array is in point t's block iff each coordinate is in the block's range on its axis. -/
theorem mem_block (t : Fin cfg0.N) (i : S65536x1.Idx) :
    i ∈ ((cfg0.win 10).blk t).view.set ↔ ∀ a : Fin 2, win0_10.index t a * S1024x1.size a ≤ (i a).val ∧ (i a).val < win0_10.index t a * S1024x1.size a + S1024x1.size a := by
  show i ∈ ((View.whole main_v8).slice (win0_10.rect t)).set ↔ _
  rw [View.set_slice_whole, Rect.mem_set_unit]
  exact Iff.rfl

/-- Row r of the result lies in the block of point r / 1024: the 64 blocks tile the 65536 rows. -/
theorem tiled (i : S65536x1.Idx) :
    ∃ t : Fin cfg0.N, (cfg0.win 10).flush t = true ∧ i ∈ ((cfg0.win 10).blk t).view.set := by
  have hi0 : (i 0).val < 65536 := (i 0).isLt
  have hi1 : (i 1).val < 1 := (i 1).isLt
  have hlt : (i 0).val / 1024 < cfg0.N := by show _ < 64; omega
  obtain ⟨-, -, ⟨e0, e1⟩, -⟩ := block_indices ⟨(i 0).val / 1024, hlt⟩
  have e0' : win0_10.index ⟨(i 0).val / 1024, hlt⟩ (0 : Fin 2) = (i 0).val / 1024 := e0
  refine ⟨⟨(i 0).val / 1024, hlt⟩, flush0_10 _, ?_⟩
  rw [mem_block]
  intro a
  match a with
  | ⟨0, _⟩ =>
    show win0_10.index ⟨(i 0).val / 1024, hlt⟩ (0 : Fin 2) * 1024 ≤ (i 0).val ∧ (i 0).val < win0_10.index ⟨(i 0).val / 1024, hlt⟩ (0 : Fin 2) * 1024 + 1024
    omega
  | ⟨1, _⟩ =>
    show win0_10.index ⟨(i 0).val / 1024, hlt⟩ (1 : Fin 2) * 1 ≤ (i 1).val ∧ (i 1).val < win0_10.index ⟨(i 0).val / 1024, hlt⟩ (1 : Fin 2) * 1 + 1
    omega

/-- The result array after the run is the network of the arguments. -/
theorem final (c : Dev nD) : (dats m 0 c).arrAt 10 cfg0.N = result m c :=
  (dats m 0 c).arrAt_eq_of_cover 10 (result m c) (fun t _ => flushed_eq m c t) tiled

/-- The kernel's run: every weakly fair execution terminates with the result array at the network of the arguments
    and the arguments unchanged. -/
theorem run : θ_run defs (onTc (τ := τ) (main (F := Ideal))) ⟨m, fun _ => 0, ρ⟩ fun r => ∀ c : Dev nD,
      r.2.mem ((c : Thread nD τ).loc main_v8) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩) (Value.run_blocks m ρ)

end Cert.KernelIdeal.Blocks

end
-- ==== Proof.lean ====
/-
  The kernel and its reference compute the same network, and both run.

  The network takes two matrices of 65536 rows by 1260 features. Each passes through one shared affine layer into
  128 columns and is clamped to [0, 1]; the two results are laid side by side (256 columns); two further clamped affine
  layers bring that to 32 and again 32 columns; a last affine layer gives one number per row, and the result is the
  logistic function 1 / (1 + exp (-y)) of it. The reference does this on the whole arrays. The kernel walks 64 blocks of
  1024 rows; it transposes the weight matrices and reshapes the biases to one row beforehand, narrows the operands of
  each product (the identity on extended reals), multiplies into a zero accumulator, and applies the logistic function
  as one operation.

  Every layer reads, in row r of its result, row r of its matrix operand only. So the kernel's block at point t is
  rows 1024·t … 1024·t + 1023 of the reference's result (Network.lean over RowOps.lean and LibRowLayers.lean), the 64
  blocks tile the 65536 rows, and the kernel's result array is the reference's, entry by entry (Blocks.lean). No law of
  arithmetic beyond 0 + x = x joins the two sides, so finiteness of the inputs is never used.

  The idealization rewrote no operation, so there is nothing to preserve beyond the program's own text.
-/
import proofs.«133397_j6846177869883_1_alg».proof.Defs
import proofs.«133397_j6846177869883_1_alg».proof.Proof.Gen.Kernel
import proofs.«133397_j6846177869883_1_alg».proof.Proof.Gen.Kernel.Skeleton
import proofs.«133397_j6846177869883_1_alg».proof.Proof.Gen.Kernel.Launch
import proofs.«133397_j6846177869883_1_alg».proof.Proof.Gen.Kernel.Points
import proofs.«133397_j6846177869883_1_alg».proof.Proof.Gen.Kernel.Frame
import proofs.«133397_j6846177869883_1_alg».proof.Proof.Gen.KernelIdeal
import proofs.«133397_j6846177869883_1_alg».proof.Proof.Gen.KernelIdeal.Skeleton
import proofs.«133397_j6846177869883_1_alg».proof.Proof.Gen.KernelIdeal.Launch
import proofs.«133397_j6846177869883_1_alg».proof.Proof.Gen.KernelIdeal.Points
import proofs.«133397_j6846177869883_1_alg».proof.Proof.Gen.KernelIdeal.Frame
import proofs.«133397_j6846177869883_1_alg».proof.Proof.Gen.ReferenceIdeal
import proofs.«133397_j6846177869883_1_alg».proof.Proof.Gen.KernelIdeal.Value
import proofs.«133397_j6846177869883_1_alg».proof.Proof.Gen.ReferenceIdeal.Run
import proofs.«133397_j6846177869883_1_alg».proof.Proof.Gen.Pre_finite_inputs
import proofs.«133397_j6846177869883_1_alg».proof.Proof.Blocks
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the ten arguments both programs end with the network of those arguments: the kernel
    block by block, the reference as its operations compose it. -/
theorem algebraic : Cert.algebraic_KernelIdeal_ReferenceIdeal := by
  intro m ρ m' ρ' _ hagree
  refine ⟨fun c => Cert.KernelIdeal.Blocks.result m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  rw [h0, h1, h2, h3, h4, h5, h6, h7, h8, h9]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
